-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S3x32 : Shape := ⟨2, ![3, 32]⟩
abbrev S32 : Shape := ⟨1, ![32]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x3 .f32) (main_arg1 : IVec S2x1600000 32) (main_arg2 : FVec F S3x32 .f32) (main_arg3 : FVec F S32 .f32) (main_arg4 : FVec F S32 .f32) (main_arg5 : FVec F S32 .f32) (main_arg6 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg2
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S100000x3 : Shape := ⟨2, ![100000, 3]⟩
abbrev S2x1600000 : Shape := ⟨2, ![2, 1600000]⟩
abbrev S3x32 : Shape := ⟨2, ![3, 32]⟩
abbrev S32 : Shape := ⟨1, ![32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S5000x3 : Shape := ⟨2, ![5000, 3]⟩
abbrev S5000x32 : Shape := ⟨2, ![5000, 32]⟩
abbrev S1600000x32 : Shape := ⟨2, ![1600000, 32]⟩
abbrev S1x32 : Shape := ⟨2, ![1, 32]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 81
  | .vmem => 25
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x32, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x32, .f32⟩
  | .hbm, ⟨53, _⟩ => ⟨S1600000x1, .f32⟩
  | .hbm, ⟨54, _⟩ => ⟨S1600000x32, .f32⟩
  | .hbm, ⟨55, _⟩ => ⟨S1600000x32, .f32⟩
  | .hbm, ⟨56, _⟩ => ⟨S_, .f32⟩
  | .hbm, ⟨57, _⟩ => ⟨S100000x32, .f32⟩
  | .hbm, ⟨58, _⟩ => ⟨S1600000x1, .i32⟩
  | .hbm, ⟨59, _⟩ => ⟨S100000x32, .f32⟩
  | .hbm, ⟨60, _⟩ => ⟨S1x32, .f32⟩
  | .hbm, ⟨61, _⟩ => ⟨S100000x1, .f32⟩
  | .hbm, ⟨62, _⟩ => ⟨S100000x32, .f32⟩
  | .hbm, ⟨63, _⟩ => ⟨S1x32, .f32⟩
  | .hbm, ⟨64, _⟩ => ⟨S1x32, .f32⟩
  | .hbm, ⟨65, _⟩ => ⟨S_, .f32⟩
  | .hbm, ⟨66, _⟩ => ⟨S1x32, .f32⟩
  | .hbm, ⟨67, _⟩ => ⟨S1x32, .f32⟩
  | .hbm, ⟨68, _⟩ => ⟨S_, .f32⟩
  | .hbm, ⟨69, _⟩ => ⟨S1x32, .f32⟩
  | .hbm, ⟨70, _⟩ => ⟨S1x32, .f32⟩
  | .hbm, ⟨71, _⟩ => ⟨S1x32, .f32⟩
  | .hbm, ⟨72, _⟩ => ⟨S1x32, .f32⟩
  | .hbm, ⟨73, _⟩ => ⟨S_, .f32⟩
  | .hbm, ⟨74, _⟩ => ⟨S1x32, .f32⟩
  | .hbm, ⟨75, _⟩ => ⟨S1x32, .f32⟩
  | .hbm, ⟨76, _⟩ => ⟨S1x32, .f32⟩
  | .hbm, ⟨77, _⟩ => ⟨S1x32, .f32⟩
  | .hbm, ⟨78, _⟩ => ⟨S1x32, .f32⟩
  | .hbm, ⟨79, _⟩ => ⟨S1x1, .f32⟩
  | .hbm, ⟨80, _⟩ => ⟨S100000x32, .f32⟩
  | .local _ .vmem, ⟨0, _⟩ => ⟨S5000x3, .f32⟩
  | .local _ .vmem, ⟨1, _⟩ => ⟨S5000x3, .f32⟩
  | .local _ .vmem, ⟨2, _⟩ => ⟨S3x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S1x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | .local _ .vmem, ⟨18, _⟩ => ⟨S1x32, .f32⟩
  | .local _ .vmem, ⟨19, _⟩ => ⟨S1x32, .f32⟩
  | .local _ .vmem, ⟨20, _⟩ => ⟨S1x32, .f32⟩
  | .local _ .vmem, ⟨21, _⟩ => ⟨S1x32, .f32⟩
  | .local _ .vmem, ⟨22, _⟩ => ⟨S1x1, .f32⟩
  | .local _ .vmem, ⟨23, _⟩ => ⟨S5000x32, .f32⟩
  | .local _ .vmem, ⟨24, _⟩ => ⟨S5000x32, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44_0 : Ref sig .tc := ⟨.hbm, 62, rfl⟩
abbrev main_v44_1 : Ref sig .tc := ⟨.hbm, 63, rfl⟩
abbrev main_v44_2 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S100000_S100000x1 : S100000.ShapeCasts S100000x1
  inb_S1x32_S1x32_0_0 : ∀ a, (![0, 0] : Fin 2 → Nat) a + S1x32.size a ≤ S1x32.size a
  h_S1x32 : 0 < S1x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  shapeCasts_S1x32_S1x32 : S1x32.ShapeCasts S1x32
  broadcasts_S1x32_S5000x32 : S1x32.Broadcasts S5000x32
  reduces_S5000x32_S32 : S5000x32.Reduces [0] S32
  bcast_S_S1x32 : S_.BroadcastsInDim S1x32 (![] : Fin 0 → Fin S1x32.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x32 : S1x1.Broadcasts S5000x32
  scatter_S100000_S1600000x1_S1600000_n_0_0_1_wf : ScatterDims.WF S100000 S1600000x1 S1600000 [] [0] [0] 1
  dot_S5000x3_S3x32_S5000x32_1_0_0_1_n_n_wf : DotDims.WF S5000x3 S3x32 S5000x32 [1] [0] [0] [1] [] []
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x32.size a ≤ S100000x32.size a
  hwx2_6 : ∀ i : grid2.Coords, EltTy.bits .f32 = 32 ∨ (Rect.block (s := S100000x32) S5000x32.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x3_S3x32_S5000x32_1_0_0_1_n_n : DotDims S5000x3 S3x32 S5000x32 where
  lhsContracting := [1]
  rhsContracting := [0]
  lhsNonContracting := [0]
  rhsNonContracting := [1]
  lhsBatch := []
  rhsBatch := []
  wf := dot_S5000x3_S3x32_S5000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44_0) S5000x32.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v44_1) S1x32.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_2) S1x32.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44_0) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S5000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S3x32 : Shape := ⟨2, ![3, 32]⟩
abbrev S32 : Shape := ⟨1, ![32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S1600000x32 : Shape := ⟨2, ![1600000, 32]⟩
abbrev S100000x1 : Shape := ⟨2, ![100000, 1]⟩
abbrev S1x32 : Shape := ⟨2, ![1, 32]⟩

abbrev nBuf : Space → Nat
  | .hbm => 104
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x32, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x32, .f32⟩
  | .hbm, ⟨50, _⟩ => ⟨S1600000x1, .f32⟩
  | .hbm, ⟨51, _⟩ => ⟨S1600000x32, .f32⟩
  | .hbm, ⟨52, _⟩ => ⟨S1600000x32, .f32⟩
  | .hbm, ⟨53, _⟩ => ⟨S_, .f32⟩
  | .hbm, ⟨54, _⟩ => ⟨S100000x32, .f32⟩
  | .hbm, ⟨55, _⟩ => ⟨S1600000x1, .i32⟩
  | .hbm, ⟨56, _⟩ => ⟨S100000x32, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x32, .f32⟩
  | .hbm, ⟨62, _⟩ => ⟨S100000x32, .f32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S_, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S1x32, .f32⟩
  | .hbm, ⟨82, _⟩ => ⟨S100000x32, .f32⟩
  | .hbm, ⟨83, _⟩ => ⟨S100000x32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S1x32, .f32⟩
  | .hbm, ⟨92, _⟩ => ⟨S100000x32, .f32⟩
  | .hbm, ⟨93, _⟩ => ⟨S100000x32, .f32⟩
  | .hbm, ⟨94, _⟩ => ⟨S1x32, .f32⟩
  | .hbm, ⟨95, _⟩ => ⟨S100000x32, .f32⟩
  | .hbm, ⟨96, _⟩ => ⟨S100000x32, .f32⟩
  | .hbm, ⟨97, _⟩ => ⟨S_, .f32⟩
  | .hbm, ⟨98, _⟩ => ⟨S100000x32, .f32⟩
  | .hbm, ⟨99, _⟩ => ⟨S100000x32, .i1⟩
  | .hbm, ⟨100, _⟩ => ⟨S_, .f32⟩
  | .hbm, ⟨101, _⟩ => ⟨S100000x32, .f32⟩
  | .hbm, ⟨102, _⟩ => ⟨S100000x32, .f32⟩
  | .hbm, ⟨103, _⟩ => ⟨S100000x32, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  shapeCasts_S1_S_ : S1.ShapeCasts S_
  scatter_S100000_S1600000x1_S1600000_n_0_0_1_wf : ScatterDims.WF S100000 S1600000x1 S1600000 [] [0] [0] 1
  dot_S100000x3_S3x32_S100000x32_1_0_0_1_n_n_wf : DotDims.WF S100000x3 S3x32 S100000x32 [1] [0] [0] [1] [] []
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.HostK.lean ====
import proofs.«162978_j89163521065197_1_alg».proof.Proof.Gen.KernelIdeal.Frame
import proofs.«162978_j89163521065197_1_alg».proof.Proof.RefRead
import Idealize.ShloMosaic.Lib.StableHlo.Run
import Idealize.ShloMosaic.Lib.Tactic

set_option maxRecDepth 16384

noncomputable section

namespace Cert.KernelIdeal.HostV

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! The contents of the buffers the three regions read, at the boundaries of @main's host stretches, each as the
    same stage function of the argument arrays that the reference program computes (the two programs share the
    degree count, the index normalisation, the gathers and the scatter). -/

/-- The argument arrays as launched, at their literal types. -/
abbrev a0 (c : Dev nD) : (⟨S100000x3, .f32⟩ : BufTy).Contents (Elt F) := m ((c : Thread nD τ).loc main_arg0)
abbrev a1 (c : Dev nD) : (⟨S2x1600000, .i32⟩ : BufTy).Contents (Elt F) := m ((c : Thread nD τ).loc main_arg1)
abbrev a2 (c : Dev nD) : (⟨S3x32, .f32⟩ : BufTy).Contents (Elt F) := m ((c : Thread nD τ).loc main_arg2)
abbrev a3 (c : Dev nD) : (⟨S32, .f32⟩ : BufTy).Contents (Elt F) := m ((c : Thread nD τ).loc main_arg3)
abbrev a4 (c : Dev nD) : (⟨S32, .f32⟩ : BufTy).Contents (Elt F) := m ((c : Thread nD τ).loc main_arg4)
abbrev a5 (c : Dev nD) : (⟨S32, .f32⟩ : BufTy).Contents (Elt F) := m ((c : Thread nD τ).loc main_arg5)
abbrev a6 (c : Dev nD) : (⟨S1, .f32⟩ : BufTy).Contents (Elt F) := m ((c : Thread nD τ).loc main_arg6)

/-! ## Before the first region -/

theorem W1_v1 (c : Dev nD) : W1 m ρ c (Proc.devRef .tc main_v1) = Cert.ReferenceIdeal.ReadP.val_main_v1 (F := F) (a1 m c) := by
  show StableHlo.after hostOps0 (W0 m ρ c) (Proc.devRef .tc main_v1) = _
  after_results; rfl
theorem W1_v3 (c : Dev nD) : W1 m ρ c (Proc.devRef .tc main_v3) = Cert.ReferenceIdeal.ReadP.val_main_v3 (F := F) (a1 m c) := by
  show StableHlo.after hostOps0 (W0 m ρ c) (Proc.devRef .tc main_v3) = _
  after_results; rfl
theorem W1_v10 (c : Dev nD) : W1 m ρ c (Proc.devRef .tc main_v10) = Cert.ReferenceIdeal.ReadP.val_main_v10 (F := F) (a1 m c) := by
  show StableHlo.after hostOps0 (W0 m ρ c) (Proc.devRef .tc main_v10) = _
  after_results; rfl
theorem W1_v12 (c : Dev nD) : W1 m ρ c (Proc.devRef .tc main_v12) = Cert.ReferenceIdeal.ReadP.val_main_v41 (F := F) (a1 m c) := by
  show StableHlo.after hostOps0 (W0 m ρ c) (Proc.devRef .tc main_v12) = _
  after_results; rfl
theorem W1_arg0 (c : Dev nD) : W1 m ρ c (Proc.devRef .tc main_arg0) = a0 m c := by
  show StableHlo.after hostOps0 (W0 m ρ c) (Proc.devRef .tc main_arg0) = _
  after_results
theorem W1_arg2 (c : Dev nD) : W1 m ρ c (Proc.devRef .tc main_arg2) = a2 m c := by
  show StableHlo.after hostOps0 (W0 m ρ c) (Proc.devRef .tc main_arg2) = _
  after_results
theorem W1_arg3 (c : Dev nD) : W1 m ρ c (Proc.devRef .tc main_arg3) = a3 m c := by
  show StableHlo.after hostOps0 (W0 m ρ c) (Proc.devRef .tc main_arg3) = _
  after_results
theorem W1_arg4 (c : Dev nD) : W1 m ρ c (Proc.devRef .tc main_arg4) = a4 m c := by
  show StableHlo.after hostOps0 (W0 m ρ c) (Proc.devRef .tc main_arg4) = _
  after_results
theorem W1_arg5 (c : Dev nD) : W1 m ρ c (Proc.devRef .tc main_arg5) = a5 m c := by
  show StableHlo.after hostOps0 (W0 m ρ c) (Proc.devRef .tc main_arg5) = _
  after_results
theorem W1_arg6 (c : Dev nD) : W1 m ρ c (Proc.devRef .tc main_arg6) = a6 m c := by
  show StableHlo.after hostOps0 (W0 m ρ c) (Proc.devRef .tc main_arg6) = _
  after_results

/-! ## After the first region: only its result array has changed -/

theorem W2_v1 (c : Dev nD) : W2 m ρ c (Proc.devRef .tc main_v1) = Cert.ReferenceIdeal.ReadP.val_main_v1 (F := F) (a1 m c) :=
  (W2_of_ne m ρ c main_v1 (by decide)).trans (W1_v1 m ρ c)
theorem W2_v3 (c : Dev nD) : W2 m ρ c (Proc.devRef .tc main_v3) = Cert.ReferenceIdeal.ReadP.val_main_v3 (F := F) (a1 m c) :=
  (W2_of_ne m ρ c main_v3 (by decide)).trans (W1_v3 m ρ c)
theorem W2_v10 (c : Dev nD) : W2 m ρ c (Proc.devRef .tc main_v10) = Cert.ReferenceIdeal.ReadP.val_main_v10 (F := F) (a1 m c) :=
  (W2_of_ne m ρ c main_v10 (by decide)).trans (W1_v10 m ρ c)
theorem W2_v12 (c : Dev nD) : W2 m ρ c (Proc.devRef .tc main_v12) = Cert.ReferenceIdeal.ReadP.val_main_v41 (F := F) (a1 m c) :=
  (W2_of_ne m ρ c main_v12 (by decide)).trans (W1_v12 m ρ c)
theorem W2_arg3 (c : Dev nD) : W2 m ρ c (Proc.devRef .tc main_arg3) = a3 m c :=
  (W2_of_ne m ρ c main_arg3 (by decide)).trans (W1_arg3 m ρ c)
theorem W2_arg4 (c : Dev nD) : W2 m ρ c (Proc.devRef .tc main_arg4) = a4 m c :=
  (W2_of_ne m ρ c main_arg4 (by decide)).trans (W1_arg4 m ρ c)
theorem W2_arg5 (c : Dev nD) : W2 m ρ c (Proc.devRef .tc main_arg5) = a5 m c :=
  (W2_of_ne m ρ c main_arg5 (by decide)).trans (W1_arg5 m ρ c)
theorem W2_arg6 (c : Dev nD) : W2 m ρ c (Proc.devRef .tc main_arg6) = a6 m c :=
  (W2_of_ne m ρ c main_arg6 (by decide)).trans (W1_arg6 m ρ c)

/-! ## Before the second region -/

set_option maxHeartbeats 8000000 in
/-- The messages summed into their targets, given the first region's result array is the linear map. -/
theorem W3_v41 (c : Dev nD) (hh : W2 m ρ c (Proc.devRef .tc main_v13) = Cert.ReferenceIdeal.ReadP.val_main_v11 (F := F) (a0 m c) (a2 m c)) :
    W3 m ρ c (Proc.devRef .tc main_v41) = Cert.ReferenceIdeal.ReadP.val_main_v39 (F := F) (a0 m c) (a1 m c) (a2 m c) := by
  show StableHlo.after hostOps1 (W2 m ρ c) (Proc.devRef .tc main_v41) = _
  after_results_simp
  rw [W2_v1, W2_v3, W2_v10, hh]
  rfl
theorem W3_v13 (c : Dev nD) : W3 m ρ c (Proc.devRef .tc main_v13) = W2 m ρ c (Proc.devRef .tc main_v13) := by
  show StableHlo.after hostOps1 (W2 m ρ c) (Proc.devRef .tc main_v13) = _
  after_results
/-- The reciprocal degrees as a column. -/
theorem W3_v43 (c : Dev nD) : W3 m ρ c (Proc.devRef .tc main_v43)
    = shapeCast S100000x1 (Cert.ReferenceIdeal.ReadP.val_main_v41 (F := F) (a1 m c)) shapeCasts_S100000_S100000x1 := by
  show StableHlo.after hostOps1 (W2 m ρ c) (Proc.devRef .tc main_v43) = _
  after_results
  rw [W2_v12]
  rfl
/-- The bias as a row. -/
theorem W3_v42 (c : Dev nD) : W3 m ρ c (Proc.devRef .tc main_v42) = shapeCast S1x32 (a3 m c) shapeCasts_S32_S1x32 := by
  show StableHlo.after hostOps1 (W2 m ρ c) (Proc.devRef .tc main_v42) = _
  after_results
  rw [W2_arg3]
  rfl
theorem W3_arg4 (c : Dev nD) : W3 m ρ c (Proc.devRef .tc main_arg4) = a4 m c := by
  show StableHlo.after hostOps1 (W2 m ρ c) (Proc.devRef .tc main_arg4) = _
  after_results; exact W2_arg4 m ρ c
theorem W3_arg5 (c : Dev nD) : W3 m ρ c (Proc.devRef .tc main_arg5) = a5 m c := by
  show StableHlo.after hostOps1 (W2 m ρ c) (Proc.devRef .tc main_arg5) = _
  after_results; exact W2_arg5 m ρ c
theorem W3_arg6 (c : Dev nD) : W3 m ρ c (Proc.devRef .tc main_arg6) = a6 m c := by
  show StableHlo.after hostOps1 (W2 m ρ c) (Proc.devRef .tc main_arg6) = _
  after_results; exact W2_arg6 m ρ c

/-! ## After the second region -/

theorem W4_arg4 (c : Dev nD) : W4 m ρ c (Proc.devRef .tc main_arg4) = a4 m c :=
  (W4_of_ne m ρ c main_arg4 (by decide)).trans (W3_arg4 m ρ c)
theorem W4_arg5 (c : Dev nD) : W4 m ρ c (Proc.devRef .tc main_arg5) = a5 m c :=
  (W4_of_ne m ρ c main_arg5 (by decide)).trans (W3_arg5 m ρ c)
theorem W4_arg6 (c : Dev nD) : W4 m ρ c (Proc.devRef .tc main_arg6) = a6 m c :=
  (W4_of_ne m ρ c main_arg6 (by decide)).trans (W3_arg6 m ρ c)

/-- The second region's three result arrays, at their literal types. -/
abbrev aggK (c : Dev nD) : (⟨S100000x32, .f32⟩ : BufTy).Contents (Elt F) := W4 m ρ c (Proc.devRef .tc main_v44_0)
abbrev sumK (c : Dev nD) : (⟨S1x32, .f32⟩ : BufTy).Contents (Elt F) := W4 m ρ c (Proc.devRef .tc main_v44_1)
abbrev sqK (c : Dev nD) : (⟨S1x32, .f32⟩ : BufTy).Contents (Elt F) := W4 m ρ c (Proc.devRef .tc main_v44_2)

/-! ## Before the third region -/

/-- The hundred thousand, as a row. -/
abbrev nRow : (⟨S1x32, .f32⟩ : BufTy).Contents (Elt F) := broadcastInDim S1x32 ![] bcast_S_S1x32 (constant S_ .f32 0x47C35000#32)
/-- The small constant added to the variance, as a row. -/
abbrev epsRow : (⟨S1x32, .f32⟩ : BufTy).Contents (Elt F) := broadcastInDim S1x32 ![] bcast_S_S1x32 (constant S_ .f32 0x3727C5AC#32)

theorem W5_v44_0 (c : Dev nD) : W5 m ρ c (Proc.devRef .tc main_v44_0) = aggK m ρ c := by
  show StableHlo.after hostOps2 (W4 m ρ c) (Proc.devRef .tc main_v44_0) = _
  after_results
/-- The column means. -/
theorem W5_v46 (c : Dev nD) : W5 m ρ c (Proc.devRef .tc main_v46) = Host.divf (sumK m ρ c) (nRow (F := F)) := by
  show StableHlo.after hostOps2 (W4 m ρ c) (Proc.devRef .tc main_v46) = _
  after_results
/-- The inverse deviations: the reciprocal square root of (mean of squares less squared mean, plus the small constant). -/
theorem W5_v53 (c : Dev nD) : W5 m ρ c (Proc.devRef .tc main_v53)
    = Host.rsqrt (addf (subf (Host.divf (sqK m ρ c) (nRow (F := F)))
        (mulf (Host.divf (sumK m ρ c) (nRow (F := F))) (Host.divf (sumK m ρ c) (nRow (F := F))))) (epsRow (F := F))) := by
  show StableHlo.after hostOps2 (W4 m ρ c) (Proc.devRef .tc main_v53) = _
  after_results
theorem W5_v54 (c : Dev nD) : W5 m ρ c (Proc.devRef .tc main_v54) = shapeCast S1x32 (a4 m c) shapeCasts_S32_S1x32 := by
  show StableHlo.after hostOps2 (W4 m ρ c) (Proc.devRef .tc main_v54) = _
  after_results
  rw [W4_arg4]
  rfl
theorem W5_v55 (c : Dev nD) : W5 m ρ c (Proc.devRef .tc main_v55) = shapeCast S1x32 (a5 m c) shapeCasts_S32_S1x32 := by
  show StableHlo.after hostOps2 (W4 m ρ c) (Proc.devRef .tc main_v55) = _
  after_results
  rw [W4_arg5]
  rfl
theorem W5_v56 (c : Dev nD) : W5 m ρ c (Proc.devRef .tc main_v56) = shapeCast S1x1 (a6 m c) shapeCasts_S1_S1x1 := by
  show StableHlo.after hostOps2 (W4 m ρ c) (Proc.devRef .tc main_v56) = _
  after_results
  rw [W4_arg6]
  rfl

end Cert.KernelIdeal.HostV

end
-- ==== Proof.Region0.lean ====
import proofs.«162978_j89163521065197_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev eX (c : Dev nD) : S100000x3.Idx → EReal := V c main_arg0
abbrev eW (c : Dev nD) : S3x32.Idx → EReal := V c main_arg2
abbrev o0 (c : Dev nD) : S100000x32.Idx → EReal := (dat0 (F := Ideal) V c).arrAt 2 cfg0.N

namespace Region0

/-! ## The block product at an index

The region's body multiplies a block of 5000 rows of `x` by the whole `[3, 32]` matrix `W`. At the ideal
instance the two narrowing format changes are the identity and the product accumulates into the zero splat, so
entry `(p, q)` of the block's result is the three-term sum `∑ k, x p k * W k q`. -/

/-- The all-zero offsets of a whole-shape rectangle of rank 2. -/
theorem zero_offsets : (![0, 0] : Fin 2 → Nat) = fun _ => 0 := funext fun a => by fin_cases a <;> rfl

/-- The left operand's index on its row axis is the result's row. -/
theorem lhs_row (i : S5000x32.Idx) (q : dot_S5000x3_S3x32_S5000x32_1_0_0_1_n_n.contr.Idx) :
    (dot_S5000x3_S3x32_S5000x32_1_0_0_1_n_n.lhsIdx i q 0).val = (i 0).val := by
  unfold DotDims.lhsIdx
  rw [dif_neg (show ¬(0 : Fin S5000x3.rank) ∈ dot_S5000x3_S3x32_S5000x32_1_0_0_1_n_n.lhsBatch by decide), dif_pos (show (0 : Fin S5000x3.rank) ∈ dot_S5000x3_S3x32_S5000x32_1_0_0_1_n_n.lhsNonContracting by decide)]
  rfl
/-- The left operand's index on its column axis is the contraction coordinate. -/
theorem lhs_col (i : S5000x32.Idx) (q : dot_S5000x3_S3x32_S5000x32_1_0_0_1_n_n.contr.Idx) :
    (dot_S5000x3_S3x32_S5000x32_1_0_0_1_n_n.lhsIdx i q 1).val = (q ⟨0, by decide⟩).val :=
  dot_S5000x3_S3x32_S5000x32_1_0_0_1_n_n.lhsIdx_val_of_single rfl i q
/-- The right operand's index on its row axis is the contraction coordinate. -/
theorem rhs_row (i : S5000x32.Idx) (q : dot_S5000x3_S3x32_S5000x32_1_0_0_1_n_n.contr.Idx) :
    (dot_S5000x3_S3x32_S5000x32_1_0_0_1_n_n.rhsIdx i q 0).val = (q ⟨0, by decide⟩).val :=
  dot_S5000x3_S3x32_S5000x32_1_0_0_1_n_n.rhsIdx_val_of_single rfl i q
/-- The right operand's index on its column axis is the result's column. -/
theorem rhs_col (i : S5000x32.Idx) (q : dot_S5000x3_S3x32_S5000x32_1_0_0_1_n_n.contr.Idx) :
    (dot_S5000x3_S3x32_S5000x32_1_0_0_1_n_n.rhsIdx i q 1).val = (i 1).val := by
  unfold DotDims.rhsIdx
  rw [dif_neg (show ¬(1 : Fin S3x32.rank) ∈ dot_S5000x3_S3x32_S5000x32_1_0_0_1_n_n.rhsBatch by decide), dif_pos (show (1 : Fin S3x32.rank) ∈ dot_S5000x3_S3x32_S5000x32_1_0_0_1_n_n.rhsNonContracting by decide)]
  rfl

/-- Entry `(p, q)` of the body's result on a block `x` of rows and the matrix `w`. -/
theorem block_product_apply (x : Vec Ideal S5000x3 .f32) (w : Vec Ideal S3x32 .f32) (p : Fin 5000) (q : Fin 32) :
    k0_pay1 (F := Ideal) x w (ix2 p q) = ∑ k : Fin 3, x (ix2 p k) * w (ix2 k q) := by
  unfold k0_pay1
  refine (Ideal.matmul_constant_zero_apply dot_S5000x3_S3x32_S5000x32_1_0_0_1_n_n none _ _ (ix2 p q)).trans ?_
  rw [← Equiv.sum_comp (contrEquiv1 dot_S5000x3_S3x32_S5000x32_1_0_0_1_n_n 3 rfl rfl).symm]
  refine Finset.sum_congr rfl fun k _ => ?_
  have hk := contrEquiv1_symm_val dot_S5000x3_S3x32_S5000x32_1_0_0_1_n_n 3 rfl rfl k
  have el : dot_S5000x3_S3x32_S5000x32_1_0_0_1_n_n.lhsIdx (ix2 p q) ((contrEquiv1 dot_S5000x3_S3x32_S5000x32_1_0_0_1_n_n 3 rfl rfl).symm k) = ix2 p k := funext fun a => Fin.ext (by
    match a with
    | ⟨0, _⟩ => exact lhs_row _ _
    | ⟨1, _⟩ => exact (lhs_col _ _).trans hk)
  have er : dot_S5000x3_S3x32_S5000x32_1_0_0_1_n_n.rhsIdx (ix2 p q) ((contrEquiv1 dot_S5000x3_S3x32_S5000x32_1_0_0_1_n_n 3 rfl rfl).symm k) = ix2 k q := funext fun a => Fin.ext (by
    match a with
    | ⟨0, _⟩ => exact (rhs_row _ _).trans hk
    | ⟨1, _⟩ => exact rhs_col _ _)
  rw [el, er]
  rfl

/-! ## What a grid point writes back

The grid has 20 points. At point `t` the first window holds rows `5000 t … 5000 t + 4999` of `x`, the second
the whole of `W`, and the third, written back at every point, the same rows of the result. -/

/-- The product `x · W` as one function of the result's index: row `r`, column `j` is `∑ k, x r k * W k j`. -/
def rowsTimesW (c : Dev nD) : S100000x32.Idx → EReal := fun i =>
  ∑ k : Fin 3, eX V c (ix2 (⟨(i 0).val, idx2_lt0 i⟩ : Fin 100000) k) * eW V c (ix2 k (⟨(i 1).val, idx2_lt1 i⟩ : Fin 32))

/-- The windows' index maps over the 20 grid points: the row block of `x` and of the result at point `t` is
    block `t`, and every other block index is `0`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t` writes back block `t` of `x · W`. -/
theorem flushed_eq_rowsTimesW (c : Dev nD) (t : Fin cfg0.N) :
    (dat0 (F := Ideal) V c).flushed 2 t = ((cfg0.win 2).blk t).view.read (Elt Ideal) (rowsTimesW V c) := by
  show (cfg0.win 2).cut (grid0.coords t) ((dat0 (F := Ideal) V c).after 2 t) = _
  rw [after0_2]
  unfold out0_2
  rw [View.canon_unit_zero zero_offsets]
  simp only [View.ld_unit_zero (S := S5000x3) zero_offsets, View.ld_unit_zero (S := S3x32) zero_offsets]
  obtain ⟨e0, e1, e2, e3, e4, e5⟩ := block_indices t
  funext j
  obtain ⟨p, q, rfl⟩ : ∃ (p : Fin 5000) (q : Fin 32), j = ix2 p q := ⟨j 0, j 1, eq_ix2 j⟩
  show k0_pay1 (F := Ideal) (iblk0 V c 0 t) (iblk0 V c 1 t) (ix2 p q)
      = rowsTimesW V c (((cfg0.win 2).blk t).view.emb (ix2 p q))
  refine (block_product_apply (iblk0 V c 0 t) (iblk0 V c 1 t) p q).trans ?_
  refine Finset.sum_congr rfl fun k _ => ?_
  have hx : iblk0 V c 0 t (ix2 p k)
      = eX V c (ix2 (⟨((((cfg0.win 2).blk t).view.emb (ix2 p q)) 0).val, idx2_lt0 _⟩ : Fin 100000) k) := by
    show V c main_arg0 (((cfg0.win 0).blk t).view.emb (ix2 p k)) = V c main_arg0 _
    refine congrArg (V c main_arg0) (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 3 + 1 * k.val = k.val
      omega
  have hw : iblk0 V c 1 t (ix2 k q)
      = eW V c (ix2 k (⟨((((cfg0.win 2).blk t).view.emb (ix2 p q)) 1).val, idx2_lt1 _⟩ : Fin 32)) := by
    show V c main_arg2 (((cfg0.win 1).blk t).view.emb (ix2 k q)) = V c main_arg2 _
    refine congrArg (V c main_arg2) (funext fun a => Fin.ext ?_)
    match a with
    | ⟨0, _⟩ =>
      show win0_1.index t (0 : Fin 2) * 3 + 1 * k.val = k.val
      omega
    | ⟨1, _⟩ =>
      show win0_1.index t (1 : Fin 2) * 32 + 1 * q.val = win0_2.index t (1 : Fin 2) * 32 + 1 * q.val
      omega
  exact congrArg₂ (· * ·) hx hw

/-! ## From the blocks to the array

The 20 row blocks tile the `100000` rows: row `r` lies in the block of point `r / 5000`. So after the last
write-back the whole result array is `x · W`. -/

/-- An index of the result lies in point `t`'s block iff, on each axis, its coordinate is in the block's range. -/
theorem mem_block_iff (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v13).slice (win0_2.rect t)).set ↔ _
  rw [View.set_slice_whole, Rect.mem_set_unit]
  exact Iff.rfl

/-- Every index of the result lies in the block of a point that writes back: the point `r / 5000` for row `r`. -/
theorem rows_covered (i : S100000x32.Idx) :
    ∃ t : Fin cfg0.N, (cfg0.win 2).flush t = true ∧ i ∈ ((cfg0.win 2).blk t).view.set := by
  have hi0 : (i 0).val < 100000 := idx2_lt0 i
  have hi1 : (i 1).val < 32 := idx2_lt1 i
  have hN : grid0.N = 20 := N_0
  have ht : (i 0).val / 5000 < cfg0.N := by show (i 0).val / 5000 < grid0.N; rw [hN]; omega
  refine ⟨⟨(i 0).val / 5000, ht⟩, flush0_2 _, ?_⟩
  obtain ⟨-, -, -, -, e4, e5⟩ := block_indices ⟨(i 0).val / 5000, ht⟩
  rw [mem_block_iff]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 32 ≤ (i 1).val
      ∧ (i 1).val < win0_2.index ⟨(i 0).val / 5000, ht⟩ (1 : Fin 2) * 32 + 32
    rw [e5]
    omega

/-- The result array after the region is `x · W`. -/
theorem result_eq_rowsTimesW (c : Dev nD) : o0 V c = rowsTimesW V c :=
  (dat0 (F := Ideal) V c).arrAt_eq_of_cover 2 (rowsTimesW V c) (fun t _ => flushed_eq_rowsTimesW V c t) rows_covered

end Region0

/-- Entry `(r, j)` of the region's result is `∑ k, x r k * W k j`. -/
theorem arr0_2 (c : Dev nD) (r : Fin 100000) (j : Fin 32) :
    o0 V c (ix2 r j) = ∑ k : Fin 3, eX V c (ix2 r k) * eW V c (ix2 k j) :=
  congrFun (Region0.result_eq_rowsTimesW V c) (ix2 r j)

end Cert.KernelIdeal.Val

end
-- ==== Proof.Region1.lean ====
import proofs.«162978_j89163521065197_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev eM (c : Dev nD) : S100000x32.Idx → EReal := V c main_v41
abbrev eH (c : Dev nD) : S100000x32.Idx → EReal := V c main_v13
abbrev eD (c : Dev nD) : S100000x1.Idx → EReal := V c main_v43
abbrev eB (c : Dev nD) : S1x32.Idx → EReal := V c main_v42
abbrev o1_4 (c : Dev nD) : S100000x32.Idx → EReal := (dat1 (F := Ideal) V c).arrAt 4 cfg1.N
abbrev o1_5 (c : Dev nD) : S1x32.Idx → EReal := (dat1 (F := Ideal) V c).arrAt 5 cfg1.N
abbrev o1_6 (c : Dev nD) : S1x32.Idx → EReal := (dat1 (F := Ideal) V c).arrAt 6 cfg1.N

/-! ## What one grid point leaves in each output's buffer

At every point the body stores the combined block (the first input plus the second scaled row by row by the
third, plus the bias row) into the first output's buffer, and adds that block's column sums, and the column sums
of its squares, to the two accumulator rows. At the first point the accumulators are first set to zero. -/

theorem hz : (![0, 0] : Fin 2 → Nat) = fun _ => 0 := funext fun a => by fin_cases a <;> rfl

section Pieces

variable {F : FTy → Type} [FloatOps F]

/-- Away from the first point the first output's buffer holds the combined block. -/
theorem pieceB4 (c : Dev nD) (i : grid1.Coords)
    (a1 : Memref sig .tc .vmem S5000x32 .f32) (h1 : a1.IsWhole) (a2 : Memref sig .tc .vmem S5000x32 .f32) (h2 : a2.IsWhole)
    (a3 : Memref sig .tc .vmem S5000x1 .f32) (h3 : a3.IsWhole) (a4 : Memref sig .tc .vmem S1x32 .f32) (h4 : a4.IsWhole)
    (a5 : Memref sig .tc .vmem S5000x32 .f32) (h5 : a5.IsWhole) (a6 : Memref sig .tc .vmem S1x32 .f32) (h6 : a6.IsWhole)
    (a7 : Memref sig .tc .vmem S1x32 .f32) (h7 : a7.IsWhole) (hc : ¬cond1_0 i)
    (x0 x1 : Vec F S5000x32 .f32) (x2 : Vec F S5000x1 .f32) (x3 xo5 xo6 : Vec F S1x32 .f32) :
    out1_B_4 c i a1 h1 a2 h2 a3 h3 a4 h4 a5 h5 a6 h6 a7 h7 hc x0 x1 x2 x3 xo5 xo6 = k1_pay3 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S5000x32) hz, View.ld_unit_zero (S := S5000x1) hz, View.ld_unit_zero (S := S1x32) hz]

/-- Away from the first point the second output's buffer holds what it held plus the block's column sums. -/
theorem pieceB5 (c : Dev nD) (i : grid1.Coords)
    (a1 : Memref sig .tc .vmem S5000x32 .f32) (h1 : a1.IsWhole) (a2 : Memref sig .tc .vmem S5000x32 .f32) (h2 : a2.IsWhole)
    (a3 : Memref sig .tc .vmem S5000x1 .f32) (h3 : a3.IsWhole) (a4 : Memref sig .tc .vmem S1x32 .f32) (h4 : a4.IsWhole)
    (a5 : Memref sig .tc .vmem S5000x32 .f32) (h5 : a5.IsWhole) (a6 : Memref sig .tc .vmem S1x32 .f32) (h6 : a6.IsWhole)
    (a7 : Memref sig .tc .vmem S1x32 .f32) (h7 : a7.IsWhole) (hc : ¬cond1_0 i)
    (x0 x1 : Vec F S5000x32 .f32) (x2 : Vec F S5000x1 .f32) (x3 xo5 xo6 : Vec F S1x32 .f32) :
    out1_B_5 c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S5000x32) hz, View.ld_unit_zero (S := S5000x1) hz, View.ld_unit_zero (S := S1x32) hz]

/-- Away from the first point the third output's buffer holds what it held plus the column sums of the block's squares. -/
theorem pieceB6 (c : Dev nD) (i : grid1.Coords)
    (a1 : Memref sig .tc .vmem S5000x32 .f32) (h1 : a1.IsWhole) (a2 : Memref sig .tc .vmem S5000x32 .f32) (h2 : a2.IsWhole)
    (a3 : Memref sig .tc .vmem S5000x1 .f32) (h3 : a3.IsWhole) (a4 : Memref sig .tc .vmem S1x32 .f32) (h4 : a4.IsWhole)
    (a5 : Memref sig .tc .vmem S5000x32 .f32) (h5 : a5.IsWhole) (a6 : Memref sig .tc .vmem S1x32 .f32) (h6 : a6.IsWhole)
    (a7 : Memref sig .tc .vmem S1x32 .f32) (h7 : a7.IsWhole) (hc : ¬cond1_0 i)
    (x0 x1 : Vec F S5000x32 .f32) (x2 : Vec F S5000x1 .f32) (x3 xo5 xo6 : Vec F S1x32 .f32) :
    out1_B_6 c i a1 h1 a2 h2 a3 h3 a4 h4 a5 h5 a6 h6 a7 h7 hc x0 x1 x2 x3 xo5 xo6 = k1_pay5 x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S5000x32) hz, View.ld_unit_zero (S := S5000x1) hz, View.ld_unit_zero (S := S1x32) hz]

/-- At the first point the first output's buffer holds the combined block. -/
theorem pieceA4 (c : Dev nD) (i : grid1.Coords)
    (a1 : Memref sig .tc .vmem S5000x32 .f32) (h1 : a1.IsWhole) (a2 : Memref sig .tc .vmem S5000x32 .f32) (h2 : a2.IsWhole)
    (a3 : Memref sig .tc .vmem S5000x1 .f32) (h3 : a3.IsWhole) (a4 : Memref sig .tc .vmem S1x32 .f32) (h4 : a4.IsWhole)
    (a5 : Memref sig .tc .vmem S5000x32 .f32) (h5 : a5.IsWhole) (a6 : Memref sig .tc .vmem S1x32 .f32) (h6 : a6.IsWhole)
    (a7 : Memref sig .tc .vmem S1x32 .f32) (h7 : a7.IsWhole) (hc : cond1_0 i)
    (x0 x1 : Vec F S5000x32 .f32) (x2 : Vec F S5000x1 .f32) (x3 : Vec F S1x32 .f32) :
    out1_A_4 c i a1 h1 a2 h2 a3 h3 a4 h4 a5 h5 a6 h6 a7 h7 hc x0 x1 x2 x3 = k1_pay3 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S5000x32) hz, View.ld_unit_zero (S := S5000x1) hz, View.ld_unit_zero (S := S1x32) hz]

/-- At the first point the second output's buffer holds the zero row plus the block's column sums. -/
theorem pieceA5 (c : Dev nD) (i : grid1.Coords)
    (a1 : Memref sig .tc .vmem S5000x32 .f32) (h1 : a1.IsWhole) (a2 : Memref sig .tc .vmem S5000x32 .f32) (h2 : a2.IsWhole)
    (a3 : Memref sig .tc .vmem S5000x1 .f32) (h3 : a3.IsWhole) (a4 : Memref sig .tc .vmem S1x32 .f32) (h4 : a4.IsWhole)
    (a5 : Memref sig .tc .vmem S5000x32 .f32) (h5 : a5.IsWhole) (a6 : Memref sig .tc .vmem S1x32 .f32) (h6 : a6.IsWhole)
    (a7 : Memref sig .tc .vmem S1x32 .f32) (h7 : a7.IsWhole) (hc : cond1_0 i)
    (x0 x1 : Vec F S5000x32 .f32) (x2 : Vec F S5000x1 .f32) (x3 : Vec F S1x32 .f32) :
    out1_A_5 c i a1 h1 a2 h2 a3 h3 a4 h4 a5 h5 a6 h6 a7 h7 hc x0 x1 x2 x3 = k1_pay4 x0 x1 x2 x3 (k1_pay1 (F := F)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x32) hz, View.readCov_unit_zero (S := S1x32) _ hz]
  simp only [View.readAt_eq_ld, h1.read_unread, h2.read_unread, h3.read_unread, h4.read_unread, h5.read_unread, h6.read_unread, h7.read_unread,
    View.ld_unit_zero (S := S5000x32) hz, View.ld_unit_zero (S := S5000x1) hz, View.ld_unit_zero (S := S1x32) hz]

/-- At the first point the third output's buffer holds the zero row plus the column sums of the block's squares. -/
theorem pieceA6 (c : Dev nD) (i : grid1.Coords)
    (a1 : Memref sig .tc .vmem S5000x32 .f32) (h1 : a1.IsWhole) (a2 : Memref sig .tc .vmem S5000x32 .f32) (h2 : a2.IsWhole)
    (a3 : Memref sig .tc .vmem S5000x1 .f32) (h3 : a3.IsWhole) (a4 : Memref sig .tc .vmem S1x32 .f32) (h4 : a4.IsWhole)
    (a5 : Memref sig .tc .vmem S5000x32 .f32) (h5 : a5.IsWhole) (a6 : Memref sig .tc .vmem S1x32 .f32) (h6 : a6.IsWhole)
    (a7 : Memref sig .tc .vmem S1x32 .f32) (h7 : a7.IsWhole) (hc : cond1_0 i)
    (x0 x1 : Vec F S5000x32 .f32) (x2 : Vec F S5000x1 .f32) (x3 : Vec F S1x32 .f32) :
    out1_A_6 c i a1 h1 a2 h2 a3 h3 a4 h4 a5 h5 a6 h6 a7 h7 hc x0 x1 x2 x3 = k1_pay5 x0 x1 x2 x3 (k1_pay2 (F := F)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x32) hz, View.readCov_unit_zero (S := S1x32) _ hz]
  simp only [View.readAt_eq_ld, h1.read_unread, h2.read_unread, h3.read_unread, h4.read_unread, h5.read_unread, h6.read_unread, h7.read_unread,
    View.ld_unit_zero (S := S5000x32) hz, View.ld_unit_zero (S := S5000x1) hz, View.ld_unit_zero (S := S1x32) hz]

end Pieces

/-! ## The payloads read at an index, over the extended reals -/

/-- A column broadcast along the rows: entry (q, j) of the broadcast is entry (q, 0) of the column. -/
theorem bcast_col (v : S5000x1.Idx → EReal) (h : S5000x1.Broadcasts S5000x32) (q : Fin 5000) (j : Fin 32) :
    broadcastTo S5000x32 v h (ix2 q j) = v (ix2 q (0 : Fin 1)) := by
  refine broadcastTo_apply v h (ix2 q j) (ix2 q (0 : Fin 1)) fun ax => ?_
  match ax with
  | ⟨0, _⟩ => rfl
  | ⟨1, _⟩ => rfl

/-- The combined block at (q, j): the first block's entry plus the second's scaled by the column's entry of row q,
    plus the bias row's entry of column j. -/
theorem pay3_apply (x0 x1 : Vec Ideal S5000x32 .f32) (x2 : Vec Ideal S5000x1 .f32) (x3 : Vec Ideal S1x32 .f32)
    (q : Fin 5000) (j : Fin 32) :
    k1_pay3 x0 x1 x2 x3 (ix2 q j)
      = (x0 (ix2 q j) + x1 (ix2 q j) * x2 (ix2 q (0 : Fin 1))) + x3 (ix2 (0 : Fin 1) j) := by
  unfold k1_pay3
  simp only [shapeCast_self]
  show (x0 (ix2 q j) + x1 (ix2 q j) * broadcastTo S5000x32 x2 broadcasts_S5000x1_S5000x32 (ix2 q j))
      + broadcastTo S5000x32 x3 broadcasts_S1x32_S5000x32 (ix2 q j) = _
  rw [bcast_col, broadcastTo_1b_ab_apply]

/-- The source index the column reduction reads for column j at row q. -/
theorem lift_eq (q : Fin 5000) (j : Fin 32) : reduces_S5000x32_S32.lift (ix1 j) q = ix2 q j := by
  funext a
  match a with
  | ⟨0, _⟩ => rfl
  | ⟨1, _⟩ => rfl

/-- The column sums of a block, laid out as a row: entry (0, j) is the sum of column j. -/
theorem colsum_apply (B : FVec Ideal S5000x32 .f32) (j : Fin 32) :
    shapeCast S1x32 (multiReduction (F := Ideal) .add [0] S32 B 0x00000000#32 reduces_S5000x32_S32 (.inl rfl) rfl)
        shapeCasts_S32_S1x32 (ix2 (0 : Fin 1) j)
      = ∑ q : Fin 5000, B (ix2 q j) := by
  rw [shapeCast_a_1a_apply]
  refine (Ideal.multiReduction_add_single B 0x00000000#32 reduces_S5000x32_S32 (.inl rfl) rfl (ix1 j)).trans ?_
  exact Finset.sum_congr rfl fun q _ => congrArg B (lift_eq q j)

/-- The updated sum row at column j: what the row held plus the sum of the combined block's column j. -/
theorem pay4_apply (x0 x1 : Vec Ideal S5000x32 .f32) (x2 : Vec Ideal S5000x1 .f32) (x3 acc : Vec Ideal S1x32 .f32)
    (j : Fin 32) :
    k1_pay4 x0 x1 x2 x3 acc (ix2 (0 : Fin 1) j)
      = acc (ix2 (0 : Fin 1) j) + ∑ q : Fin 5000, k1_pay3 x0 x1 x2 x3 (ix2 q j) := by
  unfold k1_pay4
  simp only [shapeCast_self]
  exact congrArg (acc (ix2 (0 : Fin 1) j) + ·) (colsum_apply (k1_pay3 x0 x1 x2 x3) j)

/-- The updated sum-of-squares row at column j: what the row held plus the sum of the squares of the combined
    block's column j. -/
theorem pay5_apply (x0 x1 : Vec Ideal S5000x32 .f32) (x2 : Vec Ideal S5000x1 .f32) (x3 acc : Vec Ideal S1x32 .f32)
    (j : Fin 32) :
    k1_pay5 x0 x1 x2 x3 acc (ix2 (0 : Fin 1) j)
      = acc (ix2 (0 : Fin 1) j) + ∑ q : Fin 5000, k1_pay3 x0 x1 x2 x3 (ix2 q j) * k1_pay3 x0 x1 x2 x3 (ix2 q j) := by
  unfold k1_pay5
  simp only [shapeCast_self]
  exact congrArg (acc (ix2 (0 : Fin 1) j) + ·)
    (colsum_apply (mulf (k1_pay3 x0 x1 x2 x3) (k1_pay3 x0 x1 x2 x3)) j)

/-- The reset rows are zero. -/
theorem pay1_apply (j : Fin 32) : k1_pay1 (F := Ideal) (ix2 (0 : Fin 1) j) = 0 := Ideal.ofBits_zero_f32
theorem pay2_apply (j : Fin 32) : k1_pay2 (F := Ideal) (ix2 (0 : Fin 1) j) = 0 := Ideal.ofBits_zero_f32

/-! ## The buffers after each grid point

The four input blocks of a point, named at their literal types, and the combined block they give. -/

abbrev blk0 (c : Dev nD) (t : Fin cfg1.N) : Vec Ideal S5000x32 .f32 := iblk1 V c 0 t
abbrev blk1 (c : Dev nD) (t : Fin cfg1.N) : Vec Ideal S5000x32 .f32 := iblk1 V c 1 t
abbrev blk2 (c : Dev nD) (t : Fin cfg1.N) : Vec Ideal S5000x1 .f32 := iblk1 V c 2 t
abbrev blk3 (c : Dev nD) (t : Fin cfg1.N) : Vec Ideal S1x32 .f32 := iblk1 V c 3 t

/-- The combined block of point `t`. -/
abbrev comb (c : Dev nD) (t : Fin cfg1.N) : Vec Ideal S5000x32 .f32 :=
  k1_pay3 (blk0 V c t) (blk1 V c t) (blk2 V c t) (blk3 V c t)

/-- After the first point: the combined block, and the two accumulators updated from the zero rows. -/
theorem outs_first (c : Dev nD) (t : Fin cfg1.N) (h0 : t.val % 20 = 0) :
    outsAt1 V c t.val t.isLt
      = (comb V c t,
          k1_pay4 (blk0 V c t) (blk1 V c t) (blk2 V c t) (blk3 V c t) (k1_pay1 (F := Ideal)),
          k1_pay5 (blk0 V c t) (blk1 V c t) (blk2 V c t) (blk3 V c t) (k1_pay2 (F := Ideal))) :=
  (outsAt1_A V c t h0).trans
    (congrArg₂ Prod.mk
      (pieceA4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t))
      (congrArg₂ Prod.mk
        (pieceA5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t))
        (pieceA6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t))))

/-- After a later point: the combined block, and the two accumulators updated from what the point before left. -/
theorem outs_later (c : Dev nD) (t : Fin cfg1.N) (h0 : ¬t.val % 20 = 0) :
    outsAt1 V c t.val t.isLt
      = (comb V c t,
          k1_pay4 (blk0 V c t) (blk1 V c t) (blk2 V c t) (blk3 V c t) (outsAt1 V c (t.val - 1) (Nat.lt_of_le_of_lt (Nat.sub_le _ _) t.isLt)).2.1,
          k1_pay5 (blk0 V c t) (blk1 V c t) (blk2 V c t) (blk3 V c t) (outsAt1 V c (t.val - 1) (Nat.lt_of_le_of_lt (Nat.sub_le _ _) t.isLt)).2.2) :=
  (outsAt1_B V c t h0).trans
    (congrArg₂ Prod.mk
      (pieceB4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2)
      (congrArg₂ Prod.mk
        (pieceB5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2)
        (pieceB6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2)))

/-- The first output's buffer after point `t` is that point's combined block. -/
theorem outs4 (c : Dev nD) (t : Fin cfg1.N) : (outsAt1 V c t.val t.isLt).1 = comb V c t := by
  by_cases h0 : t.val % 20 = 0
  · rw [outs_first V c t h0]
  · rw [outs_later V c t h0]

/-- Column `j`'s sum over the combined block of point `s` (zero past the grid, where it is never read). -/
def colS (c : Dev nD) (j : Fin 32) (s : ℕ) : EReal :=
  if h : s < cfg1.N then ∑ q : Fin 5000, comb V c ⟨s, h⟩ (ix2 q j) else 0

/-- Column `j`'s sum of squares over the combined block of point `s`. -/
def colQ (c : Dev nD) (j : Fin 32) (s : ℕ) : EReal :=
  if h : s < cfg1.N then ∑ q : Fin 5000, comb V c ⟨s, h⟩ (ix2 q j) * comb V c ⟨s, h⟩ (ix2 q j) else 0

/-- The sum accumulator after point `n`: the column sums of the blocks of points `0 … n`, added up in point order. -/
theorem outs5 (c : Dev nD) (j : Fin 32) : ∀ (n : ℕ) (h : n < cfg1.N),
    (outsAt1 V c n h).2.1 (ix2 (0 : Fin 1) j) = ∑ s ∈ Finset.range (n + 1), colS V c j s
  | 0, h => by
    rw [outs_first V c ⟨0, h⟩ rfl]
    dsimp only
    rw [pay4_apply, pay1_apply, zero_add, Finset.sum_range_one, colS, dif_pos h]
  | n + 1, h => by
    have hN : cfg1.N = 20 := N_1
    have hB : ¬(⟨n + 1, h⟩ : Fin cfg1.N).val % 20 = 0 := by dsimp only; omega
    rw [outs_later V c ⟨n + 1, h⟩ hB]
    dsimp only
    rw [pay4_apply]
    show (outsAt1 V c n _).2.1 (ix2 (0 : Fin 1) j) + _ = _
    rw [outs5 c j n (Nat.lt_of_succ_lt h), Finset.sum_range_succ _ (n + 1), colS, dif_pos h]

/-- The sum-of-squares accumulator after point `n`, likewise. -/
theorem outs6 (c : Dev nD) (j : Fin 32) : ∀ (n : ℕ) (h : n < cfg1.N),
    (outsAt1 V c n h).2.2 (ix2 (0 : Fin 1) j) = ∑ s ∈ Finset.range (n + 1), colQ V c j s
  | 0, h => by
    rw [outs_first V c ⟨0, h⟩ rfl]
    dsimp only
    rw [pay5_apply, pay2_apply, zero_add, Finset.sum_range_one, colQ, dif_pos h]
  | n + 1, h => by
    have hN : cfg1.N = 20 := N_1
    have hB : ¬(⟨n + 1, h⟩ : Fin cfg1.N).val % 20 = 0 := by dsimp only; omega
    rw [outs_later V c ⟨n + 1, h⟩ hB]
    dsimp only
    rw [pay5_apply]
    show (outsAt1 V c n _).2.2 (ix2 (0 : Fin 1) j) + _ = _
    rw [outs6 c j n (Nat.lt_of_succ_lt h), Finset.sum_range_succ _ (n + 1), colQ, dif_pos h]

/-! ## From blocks to the arrays

Point `t` reads rows `5000 t … 5000 t + 4999` of the three row-blocked inputs and the whole bias row, and writes
the same rows of the first output. -/

/-- The printed index maps over the grid: the row-blocked windows sit at block (t, 0), the bias row at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `q` of point `t`'s block, as a row of the whole array. -/
abbrev row (t : Fin cfg1.N) (q : Fin 5000) : Fin 100000 :=
  ⟨5000 * t.val + q.val, by have hN : cfg1.N = 20 := N_1; have := t.isLt; omega⟩

theorem blk0_apply (c : Dev nD) (t : Fin cfg1.N) (q : Fin 5000) (j : Fin 32) :
    blk0 V c t (ix2 q j) = eM V c (ix2 (row t q) j) := by
  obtain ⟨e0, e1, -⟩ := idx_facts t
  show V c main_v41 (((cfg1.win 0).blk t).view.emb (ix2 q j)) = V c main_v41 (ix2 (row t q) j)
  refine congrArg (V c main_v41) (funext fun a => Fin.ext ?_)
  match a with
  | ⟨0, _⟩ => show win1_0.index t (0 : Fin 2) * 5000 + 1 * q.val = 5000 * t.val + q.val; omega
  | ⟨1, _⟩ => show win1_0.index t (1 : Fin 2) * 32 + 1 * j.val = j.val; omega

theorem blk1_apply (c : Dev nD) (t : Fin cfg1.N) (q : Fin 5000) (j : Fin 32) :
    blk1 V c t (ix2 q j) = eH V c (ix2 (row t q) j) := by
  obtain ⟨-, -, e0, e1, -⟩ := idx_facts t
  show V c main_v13 (((cfg1.win 1).blk t).view.emb (ix2 q j)) = V c main_v13 (ix2 (row t q) j)
  refine congrArg (V c main_v13) (funext fun a => Fin.ext ?_)
  match a with
  | ⟨0, _⟩ => show win1_1.index t (0 : Fin 2) * 5000 + 1 * q.val = 5000 * t.val + q.val; omega
  | ⟨1, _⟩ => show win1_1.index t (1 : Fin 2) * 32 + 1 * j.val = j.val; omega

theorem blk2_apply (c : Dev nD) (t : Fin cfg1.N) (q : Fin 5000) :
    blk2 V c t (ix2 q (0 : Fin 1)) = eD V c (ix2 (row t q) (0 : Fin 1)) := by
  obtain ⟨-, -, -, -, e0, e1, -⟩ := idx_facts t
  show V c main_v43 (((cfg1.win 2).blk t).view.emb (ix2 q (0 : Fin 1))) = V c main_v43 (ix2 (row t q) (0 : Fin 1))
  refine congrArg (V c main_v43) (funext fun a => Fin.ext ?_)
  match a with
  | ⟨0, _⟩ => show win1_2.index t (0 : Fin 2) * 5000 + 1 * q.val = 5000 * t.val + q.val; omega
  | ⟨1, _⟩ => show win1_2.index t (1 : Fin 2) * 1 + 1 * 0 = 0; omega

theorem blk3_apply (c : Dev nD) (t : Fin cfg1.N) (j : Fin 32) :
    blk3 V c t (ix2 (0 : Fin 1) j) = eB V c (ix2 (0 : Fin 1) j) := by
  obtain ⟨-, -, -, -, -, -, e0, e1, -⟩ := idx_facts t
  show V c main_v42 (((cfg1.win 3).blk t).view.emb (ix2 (0 : Fin 1) j)) = V c main_v42 (ix2 (0 : Fin 1) j)
  refine congrArg (V c main_v42) (funext fun a => Fin.ext ?_)
  match a with
  | ⟨0, _⟩ => show win1_3.index t (0 : Fin 2) * 1 + 1 * 0 = 0; omega
  | ⟨1, _⟩ => show win1_3.index t (1 : Fin 2) * 32 + 1 * j.val = j.val; omega

/-- What the first output's array ends holding: entry (r, j) is the first input's entry plus the second's scaled by
    the column's entry of row r, plus the bias row's entry of column j. -/
abbrev G4 (c : Dev nD) : S100000x32.Idx → EReal := fun i =>
  (eM V c i + eH V c i * eD V c (ix2 (⟨(i 0).val, idx2_lt0 i⟩ : Fin 100000) (0 : Fin 1)))
    + eB V c (ix2 (0 : Fin 1) (⟨(i 1).val, idx2_lt1 i⟩ : Fin 32))

/-- The combined block of point `t` is the block of `G4` at rows `5000 t …`. -/
theorem comb_apply (c : Dev nD) (t : Fin cfg1.N) (q : Fin 5000) (j : Fin 32) :
    comb V c t (ix2 q j) = G4 V c (ix2 (row t q) j) := by
  refine (pay3_apply (blk0 V c t) (blk1 V c t) (blk2 V c t) (blk3 V c t) q j).trans ?_
  rw [blk0_apply, blk1_apply, blk2_apply, blk3_apply]

/-- Where entry (q, j) of point `t`'s output block sits in the array. -/
theorem emb4 (t : Fin cfg1.N) (q : Fin 5000) (j : Fin 32) :
    ((cfg1.win 4).blk t).view.emb (ix2 q j) = ix2 (row t q) j := by
  obtain ⟨-, -, -, -, -, -, -, -, e0, e1⟩ := idx_facts t
  refine funext fun a => Fin.ext ?_
  match a with
  | ⟨0, _⟩ => show win1_4.index t (0 : Fin 2) * 5000 + 1 * q.val = 5000 * t.val + q.val; omega
  | ⟨1, _⟩ => show win1_4.index t (1 : Fin 2) * 32 + 1 * j.val = j.val; omega

/-- What point `t` writes back to the first output is block `t` of `G4`. -/
theorem flushed4_eq (c : Dev nD) (t : Fin cfg1.N) :
    (dat1 (F := Ideal) V c).flushed 4 t = ((cfg1.win 4).blk t).view.read (Elt Ideal) (G4 V c) := by
  show (cfg1.win 4).cut (grid1.coords t) ((dat1 (F := Ideal) V c).after 4 t) = _
  rw [after1_4, outs4]
  have key : ∀ y : S5000x32.Idx, comb V c t y = G4 V c (((cfg1.win 4).blk t).view.emb y) := fun y => by
    obtain ⟨q, j, rfl⟩ : ∃ (q : Fin 5000) (j : Fin 32), y = ix2 q j := ⟨y 0, y 1, eq_ix2 y⟩
    rw [comb_apply, emb4]
  exact funext key

/-- An index of the array is in point `t`'s block iff each coordinate is in the block's range on its axis. -/
theorem mem_blk4 (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v44_0).slice (win1_4.rect t)).set ↔ _
  rw [View.set_slice_whole, Rect.mem_set_unit]
  exact Iff.rfl

/-- Every row lies in the block of the point `r / 5000`, and every point writes its block back: the first output's
    array ends as `G4`. -/
theorem final4 (c : Dev nD) : o1_4 V c = G4 V c :=
  (dat1 (F := Ideal) V c).arrAt_eq_of_cover 4 (G4 V c) (fun t _ => flushed4_eq V c t) fun i => by
    have hN : cfg1.N = 20 := N_1
    have hi0 : (i 0).val < 100000 := (i 0).isLt
    have hi1 : (i 1).val < 32 := (i 1).isLt
    refine ⟨⟨(i 0).val / 5000, by omega⟩, flush1_4 _, ?_⟩
    rw [mem_blk4]
    obtain ⟨-, -, -, -, -, -, -, -, e0, e1⟩ := idx_facts ⟨(i 0).val / 5000, by omega⟩
    intro a
    match a with
    | ⟨0, _⟩ =>
      show win1_4.index _ (0 : Fin 2) * 5000 ≤ (i 0).val ∧ (i 0).val < win1_4.index _ (0 : Fin 2) * 5000 + 5000
      rw [e0]; dsimp only; omega
    | ⟨1, _⟩ =>
      show win1_4.index _ (1 : Fin 2) * 32 ≤ (i 1).val ∧ (i 1).val < win1_4.index _ (1 : Fin 2) * 32 + 32
      rw [e1]; omega

/-! ## The two accumulators: one write-back, after the last point -/

/-- The last point. -/
abbrev tLast : Fin cfg1.N := ⟨19, by rw [show cfg1.N = 20 from N_1]; decide⟩

/-- What the accumulators hold after the last point. -/
abbrev res5 (c : Dev nD) : Vec Ideal S1x32 .f32 := (outsAt1 V c tLast.val tLast.isLt).2.1
abbrev res6 (c : Dev nD) : Vec Ideal S1x32 .f32 := (outsAt1 V c tLast.val tLast.isLt).2.2

theorem flushed5_eq (c : Dev nD) (t : Fin cfg1.N) (hf : (cfg1.win 5).flush t = true) :
    (dat1 (F := Ideal) V c).flushed 5 t = ((cfg1.win 5).blk t).view.read (Elt Ideal) (res5 V c) := by
  have hN : cfg1.N = 20 := N_1
  have h19 : t.val = 19 := by have := (flush1_5 t).mp hf; have := t.isLt; omega
  obtain rfl : t = tLast := Fin.ext h19
  show (cfg1.win 5).cut (grid1.coords tLast) ((dat1 (F := Ideal) V c).after 5 tLast) = _
  rw [after1_5]
  have hz' : (fun a => win1_5.index tLast a * main_v44_1.ty.shape.size a) = fun _ => 0 :=
    funext fun a => by fin_cases a <;> decide
  exact (Memref.read_access_unit_zero (Elt Ideal) main_v44_1 hz' (fun a => by rw [congrFun hz' a]; simp) (res5 V c)).symm

theorem flushed6_eq (c : Dev nD) (t : Fin cfg1.N) (hf : (cfg1.win 6).flush t = true) :
    (dat1 (F := Ideal) V c).flushed 6 t = ((cfg1.win 6).blk t).view.read (Elt Ideal) (res6 V c) := by
  have hN : cfg1.N = 20 := N_1
  have h19 : t.val = 19 := by have := (flush1_6 t).mp hf; have := t.isLt; omega
  obtain rfl : t = tLast := Fin.ext h19
  show (cfg1.win 6).cut (grid1.coords tLast) ((dat1 (F := Ideal) V c).after 6 tLast) = _
  rw [after1_6]
  have hz' : (fun a => win1_6.index tLast a * main_v44_2.ty.shape.size a) = fun _ => 0 :=
    funext fun a => by fin_cases a <;> decide
  exact (Memref.read_access_unit_zero (Elt Ideal) main_v44_2 hz' (fun a => by rw [congrFun hz' a]; simp) (res6 V c)).symm

/-- The block the last point writes back is the whole one-row array. -/
theorem final5 (c : Dev nD) : o1_5 V c = res5 V c :=
  (dat1 (F := Ideal) V c).arrAt_eq_of_cover 5 (res5 V c) (flushed5_eq V c) fun i =>
    ⟨tLast, (flush1_5 tLast).mpr rfl, by
      show i ∈ ((View.whole main_v44_1).slice (win1_5.rect tLast)).set
      rw [View.set_slice_whole, Rect.mem_set_unit]
      intro a
      have h0 : (i 0 : Nat) < 1 := (i 0).isLt
      have h1 : (i 1 : Nat) < 32 := (i 1).isLt
      match a with
      | ⟨0, _⟩ =>
        show win1_5.index tLast 0 * win1_5.size 0 ≤ (i 0 : Nat) ∧ (i 0 : Nat) < win1_5.index tLast 0 * win1_5.size 0 + win1_5.xsize (grid1.coords tLast) 0
        rw [show win1_5.index tLast 0 * win1_5.size 0 = 0 from by decide +kernel, show win1_5.xsize (grid1.coords tLast) 0 = 1 from by decide +kernel]; omega
      | ⟨1, _⟩ =>
        show win1_5.index tLast 1 * win1_5.size 1 ≤ (i 1 : Nat) ∧ (i 1 : Nat) < win1_5.index tLast 1 * win1_5.size 1 + win1_5.xsize (grid1.coords tLast) 1
        rw [show win1_5.index tLast 1 * win1_5.size 1 = 0 from by decide +kernel, show win1_5.xsize (grid1.coords tLast) 1 = 32 from by decide +kernel]; omega⟩

theorem final6 (c : Dev nD) : o1_6 V c = res6 V c :=
  (dat1 (F := Ideal) V c).arrAt_eq_of_cover 6 (res6 V c) (flushed6_eq V c) fun i =>
    ⟨tLast, (flush1_6 tLast).mpr rfl, by
      show i ∈ ((View.whole main_v44_2).slice (win1_6.rect tLast)).set
      rw [View.set_slice_whole, Rect.mem_set_unit]
      intro a
      have h0 : (i 0 : Nat) < 1 := (i 0).isLt
      have h1 : (i 1 : Nat) < 32 := (i 1).isLt
      match a with
      | ⟨0, _⟩ =>
        show win1_6.index tLast 0 * win1_6.size 0 ≤ (i 0 : Nat) ∧ (i 0 : Nat) < win1_6.index tLast 0 * win1_6.size 0 + win1_6.xsize (grid1.coords tLast) 0
        rw [show win1_6.index tLast 0 * win1_6.size 0 = 0 from by decide +kernel, show win1_6.xsize (grid1.coords tLast) 0 = 1 from by decide +kernel]; omega
      | ⟨1, _⟩ =>
        show win1_6.index tLast 1 * win1_6.size 1 ≤ (i 1 : Nat) ∧ (i 1 : Nat) < win1_6.index tLast 1 * win1_6.size 1 + win1_6.xsize (grid1.coords tLast) 1
        rw [show win1_6.index tLast 1 * win1_6.size 1 = 0 from by decide +kernel, show win1_6.xsize (grid1.coords tLast) 1 = 32 from by decide +kernel]; omega⟩

/-! ## The three arrays -/

theorem arr1_4 (c : Dev nD) (r : Fin 100000) (j : Fin 32) :
    o1_4 V c (ix2 r j) = (eM V c (ix2 r j) + eH V c (ix2 r j) * eD V c (ix2 r (0 : Fin 1))) + eB V c (ix2 (0 : Fin 1) j) := by
  exact congrFun (final4 V c) (ix2 r j)

theorem arr1_5 (c : Dev nD) (j : Fin 32) :
    o1_5 V c (ix2 (0 : Fin 1) j)
      = ∑ t : Fin 20, ∑ q : Fin 5000, o1_4 V c (ix2 (⟨5000 * t.val + q.val, by omega⟩ : Fin 100000) j) := by
  have hN : cfg1.N = 20 := N_1
  have h5 : res5 V c (ix2 (0 : Fin 1) j) = ∑ s ∈ Finset.range 20, colS V c j s := outs5 V c j 19 tLast.isLt
  rw [final5, h5, Finset.sum_range]
  refine Finset.sum_congr rfl fun t _ => ?_
  have ht : t.val < cfg1.N := by have := t.isLt; omega
  rw [colS, dif_pos ht]
  refine Finset.sum_congr rfl fun q _ => ?_
  rw [comb_apply]
  exact (congrFun (final4 V c) _).symm

theorem arr1_6 (c : Dev nD) (j : Fin 32) :
    o1_6 V c (ix2 (0 : Fin 1) j)
      = ∑ t : Fin 20, ∑ q : Fin 5000, o1_4 V c (ix2 (⟨5000 * t.val + q.val, by omega⟩ : Fin 100000) j)
          * o1_4 V c (ix2 (⟨5000 * t.val + q.val, by omega⟩ : Fin 100000) j) := by
  have hN : cfg1.N = 20 := N_1
  have h6 : res6 V c (ix2 (0 : Fin 1) j) = ∑ s ∈ Finset.range 20, colQ V c j s := outs6 V c j 19 tLast.isLt
  rw [final6, h6, Finset.sum_range]
  refine Finset.sum_congr rfl fun t _ => ?_
  have ht : t.val < cfg1.N := by have := t.isLt; omega
  rw [colQ, dif_pos ht]
  refine Finset.sum_congr rfl fun q _ => ?_
  rw [comb_apply]
  exact (congrArg (fun x => x * x) (congrFun (final4 V c) _)).symm

end Cert.KernelIdeal.Val

end
-- ==== Proof.Region2.lean ====
import proofs.«162978_j89163521065197_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev eA (c : Dev nD) : S100000x32.Idx → EReal := V c main_v44_0
abbrev eMean (c : Dev nD) : S1x32.Idx → EReal := V c main_v46
abbrev eIstd (c : Dev nD) : S1x32.Idx → EReal := V c main_v53
abbrev eG (c : Dev nD) : S1x32.Idx → EReal := V c main_v54
abbrev eBeta (c : Dev nD) : S1x32.Idx → EReal := V c main_v55
abbrev eP (c : Dev nD) : S1x1.Idx → EReal := V c main_v56
abbrev o2 (c : Dev nD) : S100000x32.Idx → EReal := (dat2 (F := Ideal) V c).arrAt 6 cfg2.N

/-- The centred entry times the inverse deviation, times the scale, plus the shift. -/
def yy (a mu s g b : EReal) : EReal := ((a - mu) * s) * g + b

/-- The leaky threshold: the value itself where it is at least zero, the slope times the value elsewhere. -/
def leaky (p y : EReal) : EReal :=
  Scalar.select (FloatOps.cmpf (F := Ideal) (φ := .f32) .oge y (FloatOps.ofBits (F := Ideal) .f32 0x00000000#32)) y (p * y)

/-! ## The body's arithmetic at one entry -/

/-- The zero offsets of a whole-block access, however spelt. -/
theorem hz2 : (![0, 0] : Fin 2 → Nat) = fun _ => 0 := funext fun a => by fin_cases a <;> rfl

/-- A one-entry array broadcast to any matrix shape reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (k : Fin b) :
    broadcastTo ⟨2, ![a, b]⟩ v h (ix2 p k) = v (ix2 (0 : Fin 1) (0 : Fin 1)) := by
  refine broadcastTo_apply v h (ix2 p k) (ix2 (0 : Fin 1) (0 : Fin 1)) fun ax => ?_
  match ax with
  | ⟨0, _⟩ => rfl
  | ⟨1, _⟩ => rfl

/-- The body's result at row q, column j of a block: the row statistics and the affine parameters enter by
    their column j only, the slope by its one entry; the arithmetic is the centred, scaled, shifted entry passed
    through the leaky threshold. -/
theorem pay_at (a : Vec Ideal S5000x32 .f32) (mu s g b : Vec Ideal S1x32 .f32) (p : Vec Ideal S1x1 .f32)
    (q : Fin 5000) (j : Fin 32) :
    k2_pay1 (F := Ideal) a mu s g b p (ix2 q j)
      = leaky (p (ix2 (0 : Fin 1) (0 : Fin 1)))
          (yy (a (ix2 q j)) (mu (ix2 (0 : Fin 1) j)) (s (ix2 (0 : Fin 1) j)) (g (ix2 (0 : Fin 1) j)) (b (ix2 (0 : Fin 1) j))) := by
  unfold k2_pay1
  simp only [shapeCast_self]
  rw [select_apply, cmpf_apply, mulf_apply, addf_apply, mulf_apply, mulf_apply, subf_apply, broadcast_apply,
    broadcastTo_11_ab_apply, broadcastTo_1b_ab_apply, broadcastTo_1b_ab_apply, broadcastTo_1b_ab_apply,
    broadcastTo_1b_ab_apply]
  rfl

/-- The same, at any index of the block. -/
theorem pay_at_idx (a : Vec Ideal S5000x32 .f32) (mu s g b : Vec Ideal S1x32 .f32) (p : Vec Ideal S1x1 .f32)
    (y : S5000x32.Idx) :
    k2_pay1 (F := Ideal) a mu s g b p y
      = leaky (p (ix2 (0 : Fin 1) (0 : Fin 1)))
          (yy (a y) (mu (ix2 (0 : Fin 1) (y 1))) (s (ix2 (0 : Fin 1) (y 1))) (g (ix2 (0 : Fin 1) (y 1))) (b (ix2 (0 : Fin 1) (y 1)))) := by
  obtain ⟨q, j, rfl⟩ : ∃ (q : Fin 5000) (j : Fin 32), y = ix2 q j := ⟨y 0, y 1, eq_ix2 y⟩
  exact pay_at a mu s g b p q j

/-! ## From the blocks to the whole array -/

/-- What the result array holds, as one function of the six arrays the region reads: entry (r, j) is the leaky
    threshold of the normalized entry (r, j), with column j of each of the four row arrays. -/
def whole2 (A : S100000x32.Idx → EReal) (mu s g b : S1x32.Idx → EReal) (p : S1x1.Idx → EReal) : S100000x32.Idx → EReal :=
  fun i => leaky (p (ix2 (0 : Fin 1) (0 : Fin 1)))
    (yy (A i) (mu (ix2 (0 : Fin 1) (i 1))) (s (ix2 (0 : Fin 1) (i 1))) (g (ix2 (0 : Fin 1) (i 1))) (b (ix2 (0 : Fin 1) (i 1))))

/-- The whole-array function at an entry, from reads at indices known to be that entry's row and column:
    the big array at the entry itself, each row array at the entry's column, the slope at its one entry. -/
theorem whole2_of_reads (A : S100000x32.Idx → EReal) (mu s g b : S1x32.Idx → EReal) (p : S1x1.Idx → EReal)
    (i i0 : S100000x32.Idx) (k1 k2 k3 k4 : S1x32.Idx) (k5 : S1x1.Idx)
    (h0 : i0 = i) (h1 : k1 = ix2 (0 : Fin 1) (i 1)) (h2 : k2 = ix2 (0 : Fin 1) (i 1))
    (h3 : k3 = ix2 (0 : Fin 1) (i 1)) (h4 : k4 = ix2 (0 : Fin 1) (i 1)) (h5 : k5 = ix2 (0 : Fin 1) (0 : Fin 1)) :
    leaky (p k5) (yy (A i0) (mu k1) (s k2) (g k3) (b k4)) = whole2 A mu s g b p i := by
  subst h0 h1 h2 h3 h4 h5
  rfl

/-- The block indices of the seven windows, decided over the twenty points: the big input and the result move
    together down the rows, one block of 5000 rows per point, and never along the columns; the five small
    arrays are one block each. -/
theorem blk_idx : ∀ t : Fin cfg2.N,
    win2_0.index t (0 : Fin 2) = win2_6.index t (0 : Fin 2) ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Each of the twenty row blocks is some point's. -/
theorem blk_onto : ∀ q : Fin 20, ∃ t : Fin cfg2.N, win2_6.index t = ![q.val, 0] :=
  (by decide +kernel : ∀ q : Fin 20, ∃ t : Fin grid2.N, win2_6.index t = ![q.val, 0])

/-- What point t writes back is block t of the whole-array function. -/
theorem flushed2_eq (c : Dev nD) (t : Fin cfg2.N) :
    (dat2 (F := Ideal) V c).flushed 6 t
      = ((cfg2.win 6).blk t).view.read (Elt Ideal)
          (whole2 (eA V c) (eMean V c) (eIstd V c) (eG V c) (eBeta V c) (eP V c)) := by
  show (cfg2.win 6).cut (grid2.coords t) ((dat2 (F := Ideal) V c).after 6 t) = _
  rw [after2_6]
  unfold out2_6
  rw [View.canon_unit_zero hz2]
  simp only [View.ld_unit_zero (S := S5000x32) hz2, View.ld_unit_zero (S := S1x32) hz2, View.ld_unit_zero (S := S1x1) hz2]
  obtain ⟨e00, e01, e60, e61, e10, e11, e20, e21, e30, e31, e40, e41, e50, e51⟩ := blk_idx t
  funext y
  refine (pay_at_idx (iblk2 V c 0 t) (iblk2 V c 1 t) (iblk2 V c 2 t) (iblk2 V c 3 t) (iblk2 V c 4 t) (iblk2 V c 5 t) y).trans ?_
  show leaky (V c main_v56 (((cfg2.win 5).blk t).view.emb (ix2 (0 : Fin 1) (0 : Fin 1))))
      (yy (V c main_v44_0 (((cfg2.win 0).blk t).view.emb y))
        (V c main_v46 (((cfg2.win 1).blk t).view.emb (ix2 (0 : Fin 1) (y 1))))
        (V c main_v53 (((cfg2.win 2).blk t).view.emb (ix2 (0 : Fin 1) (y 1))))
        (V c main_v54 (((cfg2.win 3).blk t).view.emb (ix2 (0 : Fin 1) (y 1))))
        (V c main_v55 (((cfg2.win 4).blk t).view.emb (ix2 (0 : Fin 1) (y 1)))))
    = whole2 (eA V c) (eMean V c) (eIstd V c) (eG V c) (eBeta V c) (eP V c) (((cfg2.win 6).blk t).view.emb y)
  -- a block's coordinate is its block index times the block's extent plus the coordinate inside the block
  have h0 : ((cfg2.win 0).blk t).view.emb y = ((cfg2.win 6).blk t).view.emb y := by
    funext a; apply Fin.ext
    match a with
    | ⟨0, _⟩ => show win2_0.index t (0 : Fin 2) * 5000 + 1 * (y 0).val = win2_6.index t (0 : Fin 2) * 5000 + 1 * (y 0).val; omega
    | ⟨1, _⟩ => show win2_0.index t (1 : Fin 2) * 32 + 1 * (y 1).val = win2_6.index t (1 : Fin 2) * 32 + 1 * (y 1).val; omega
  have h1 : ((cfg2.win 1).blk t).view.emb (ix2 (0 : Fin 1) (y 1)) = ix2 (0 : Fin 1) ((((cfg2.win 6).blk t).view.emb y) 1) := by
    funext a; apply Fin.ext
    match a with
    | ⟨0, _⟩ => show win2_1.index t (0 : Fin 2) * 1 + 1 * 0 = 0; omega
    | ⟨1, _⟩ => show win2_1.index t (1 : Fin 2) * 32 + 1 * (y 1).val = win2_6.index t (1 : Fin 2) * 32 + 1 * (y 1).val; omega
  have h2 : ((cfg2.win 2).blk t).view.emb (ix2 (0 : Fin 1) (y 1)) = ix2 (0 : Fin 1) ((((cfg2.win 6).blk t).view.emb y) 1) := by
    funext a; apply Fin.ext
    match a with
    | ⟨0, _⟩ => show win2_2.index t (0 : Fin 2) * 1 + 1 * 0 = 0; omega
    | ⟨1, _⟩ => show win2_2.index t (1 : Fin 2) * 32 + 1 * (y 1).val = win2_6.index t (1 : Fin 2) * 32 + 1 * (y 1).val; omega
  have h3 : ((cfg2.win 3).blk t).view.emb (ix2 (0 : Fin 1) (y 1)) = ix2 (0 : Fin 1) ((((cfg2.win 6).blk t).view.emb y) 1) := by
    funext a; apply Fin.ext
    match a with
    | ⟨0, _⟩ => show win2_3.index t (0 : Fin 2) * 1 + 1 * 0 = 0; omega
    | ⟨1, _⟩ => show win2_3.index t (1 : Fin 2) * 32 + 1 * (y 1).val = win2_6.index t (1 : Fin 2) * 32 + 1 * (y 1).val; omega
  have h4 : ((cfg2.win 4).blk t).view.emb (ix2 (0 : Fin 1) (y 1)) = ix2 (0 : Fin 1) ((((cfg2.win 6).blk t).view.emb y) 1) := by
    funext a; apply Fin.ext
    match a with
    | ⟨0, _⟩ => show win2_4.index t (0 : Fin 2) * 1 + 1 * 0 = 0; omega
    | ⟨1, _⟩ => show win2_4.index t (1 : Fin 2) * 32 + 1 * (y 1).val = win2_6.index t (1 : Fin 2) * 32 + 1 * (y 1).val; omega
  have h5 : ((cfg2.win 5).blk t).view.emb (ix2 (0 : Fin 1) (0 : Fin 1)) = ix2 (0 : Fin 1) (0 : Fin 1) := by
    funext a; apply Fin.ext
    match a with
    | ⟨0, _⟩ => show win2_5.index t (0 : Fin 2) * 1 + 1 * 0 = 0; omega
    | ⟨1, _⟩ => show win2_5.index t (1 : Fin 2) * 1 + 1 * 0 = 0; omega
  exact whole2_of_reads (eA V c) (eMean V c) (eIstd V c) (eG V c) (eBeta V c) (eP V c)
    (((cfg2.win 6).blk t).view.emb y) (((cfg2.win 0).blk t).view.emb y)
    (((cfg2.win 1).blk t).view.emb (ix2 (0 : Fin 1) (y 1))) (((cfg2.win 2).blk t).view.emb (ix2 (0 : Fin 1) (y 1)))
    (((cfg2.win 3).blk t).view.emb (ix2 (0 : Fin 1) (y 1))) (((cfg2.win 4).blk t).view.emb (ix2 (0 : Fin 1) (y 1)))
    (((cfg2.win 5).blk t).view.emb (ix2 (0 : Fin 1) (0 : Fin 1))) h0 h1 h2 h3 h4 h5

/-- An index of the result array is in point t's block iff each coordinate is in the block's range on its axis. -/
theorem mem_blk2 (t : Fin cfg2.N) (i : S100000x32.Idx) :
    i ∈ ((cfg2.win 6).blk t).view.set ↔ ∀ a : Fin 2, win2_6.index t a * S5000x32.size a ≤ (i a).val ∧ (i a).val < win2_6.index t a * S5000x32.size a + S5000x32.size a := by
  show i ∈ ((View.whole main_v57).slice (win2_6.rect t)).set ↔ _
  rw [View.set_slice_whole, Rect.mem_set_unit]
  exact Iff.rfl

/-- Every entry of the result array is written back by some point: row r by the point whose block holds it,
    the quotient of r by 5000. -/
theorem cover2 (i : S100000x32.Idx) :
    ∃ t : Fin cfg2.N, (cfg2.win 6).flush t = true ∧ i ∈ ((cfg2.win 6).blk t).view.set := by
  have hi0 : (i 0).val < 100000 := (i 0).isLt
  have hi1 : (i 1).val < 32 := (i 1).isLt
  obtain ⟨t, ht⟩ := blk_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 32 ≤ (i 1).val ∧ (i 1).val < win2_6.index t (1 : Fin 2) * 32 + 32; omega

/-- The result array after the twenty points is the whole-array function of the six arrays the region reads. -/
theorem final2 (c : Dev nD) :
    o2 V c = whole2 (eA V c) (eMean V c) (eIstd V c) (eG V c) (eBeta V c) (eP V c) :=
  (dat2 (F := Ideal) V c).arrAt_eq_of_cover 6
    (whole2 (eA V c) (eMean V c) (eIstd V c) (eG V c) (eBeta V c) (eP V c))
    (fun t _ => flushed2_eq V c t) cover2

theorem arr2_6 (c : Dev nD) (r : Fin 100000) (j : Fin 32) :
    o2 V c (ix2 r j)
      = leaky (eP V c (ix2 (0 : Fin 1) (0 : Fin 1)))
          (yy (eA V c (ix2 r j)) (eMean V c (ix2 (0 : Fin 1) j)) (eIstd V c (ix2 (0 : Fin 1) j)) (eG V c (ix2 (0 : Fin 1) j)) (eBeta V c (ix2 (0 : Fin 1) j))) :=
  congrFun (final2 V c) (ix2 r j)

end Cert.KernelIdeal.Val

end
-- ==== Proof.KernelValue.lean ====
import proofs.«162978_j89163521065197_1_alg».proof.Proof.HostK
import proofs.«162978_j89163521065197_1_alg».proof.Proof.Region0
import proofs.«162978_j89163521065197_1_alg».proof.Proof.Region1
import proofs.«162978_j89163521065197_1_alg».proof.Proof.Region2
import Idealize.ShloMosaic.Lib.Pipeline.Value
import Idealize.ShloMosaic.Lib.ValueIdx
import Idealize.ShloMosaic.Lib.ValueLayout

set_option maxRecDepth 16384

noncomputable section

namespace Cert.KernelIdeal.KV

open Cert.KernelIdeal Cert.KernelIdeal.Gen Cert.KernelIdeal.HostV Cert.KernelIdeal.Val
open Idealize.ShloMosaic Idealize.ShloMosaic.TcCoe Idealize.SL.Sem Idealize.ShloMosaic.ValueIdx
open Cert.ReferenceIdeal.ReadP

/-! The value of the kernel program's result array, region by region: each region's output arrays (read off the
    pipeline's proof data) composed with the host stretches between them, every intermediate array named by the
    stage function of the argument arrays that the reference program also computes. -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt Ideal) ℓ) (ρ : Dev nD → PrngReg)

/-! ## The first region's result array is the linear map of the features -/

theorem lidx_eq (r : Fin 100000) (j : Fin 32) (k : Fin 3) : lidx_main_v11 (ix2 r j) k = ix2 r k :=
  funext fun a => match a with | ⟨0, _⟩ => rfl | ⟨1, _⟩ => rfl
theorem ridx_eq (r : Fin 100000) (j : Fin 32) (k : Fin 3) : ridx_main_v11 (ix2 r j) k = ix2 k j :=
  funext fun a => match a with | ⟨0, _⟩ => rfl | ⟨1, _⟩ => rfl

theorem hH (c : Dev nD) : W2 m ρ c (Proc.devRef .tc main_v13) = val_main_v11 (F := Ideal) (a0 m c) (a2 m c) := by
  refine (W2_arr m ρ c 2).trans ?_
  funext i
  obtain ⟨r, j, rfl⟩ : ∃ (r : Fin 100000) (j : Fin 32), i = ix2 r j := ⟨i 0, i 1, eq_ix2 i⟩
  refine (arr0_2 (V1 m ρ) c r j).trans ?_
  rw [val_main_v11_apply]
  refine Finset.sum_congr rfl fun k _ => ?_
  have e0 : eX (V1 m ρ) c = a0 m c := W1_arg0 m ρ c
  have e2 : eW (V1 m ρ) c = a2 m c := W1_arg2 m ρ c
  rw [lidx_eq, ridx_eq, e0, e2]

/-! ## The second region's result arrays -/

theorem idx42_43 (r : Fin 100000) (j : Fin 32) : idx_main_v42 (idx_main_v43 (ix2 r j)) = ix1 r :=
  funext fun a => match a with | ⟨0, _⟩ => rfl
theorem idx46_47 (r : Fin 100000) (j : Fin 32) : idx_main_v46 (idx_main_v47 (ix2 r j)) = ix1 j :=
  funext fun a => match a with | ⟨0, _⟩ => rfl

/-- The combined array is the reference's: messages, the node's own row over its degree, the bias. -/
theorem hA (c : Dev nD) : aggK m ρ c = val_main_v48 (F := Ideal) (a0 m c) (a1 m c) (a2 m c) (a3 m c) := by
  refine (W4_arr m ρ c 4).trans ?_
  funext i
  obtain ⟨r, j, rfl⟩ : ∃ (r : Fin 100000) (j : Fin 32), i = ix2 r j := ⟨i 0, i 1, eq_ix2 i⟩
  refine (arr1_4 (V3 m ρ) c r j).trans ?_
  rw [val_main_v48_apply, val_main_v45_apply, val_main_v44_apply, val_main_v43_apply, val_main_v42_apply, val_main_v47_apply,
    val_main_v46_apply, idx42_43, idx46_47, Ideal.addf_def, Ideal.addf_def, Ideal.mulf_def]
  have eM' : eM (V3 m ρ) c = val_main_v39 (F := Ideal) (a0 m c) (a1 m c) (a2 m c) := W3_v41 m ρ c (hH m ρ c)
  have eH' : eH (V3 m ρ) c = val_main_v11 (F := Ideal) (a0 m c) (a2 m c) := (W3_v13 m ρ c).trans (hH m ρ c)
  have eD' : eD (V3 m ρ) c = shapeCast S100000x1 (val_main_v41 (F := Ideal) (a1 m c)) shapeCasts_S100000_S100000x1 := W3_v43 m ρ c
  have eB' : eB (V3 m ρ) c = shapeCast S1x32 (a3 m c) shapeCasts_S32_S1x32 := W3_v42 m ρ c
  rw [eM', eH', eD', eB', shapeCast_a_a1_apply, shapeCast_a_1a_apply]

/-- The column sums, block by block. -/
theorem hS1 (c : Dev nD) (j : Fin 32) : sumK m ρ c (ix2 (0 : Fin 1) j)
    = ∑ t : Fin 20, ∑ q : Fin 5000,
        val_main_v48 (F := Ideal) (a0 m c) (a1 m c) (a2 m c) (a3 m c) (ix2 (⟨5000 * t.val + q.val, by omega⟩ : Fin 100000) j) := by
  have e5 : sumK m ρ c = o1_5 (V3 m ρ) c := W4_arr m ρ c 5
  have e4 : o1_4 (V3 m ρ) c = val_main_v48 (F := Ideal) (a0 m c) (a1 m c) (a2 m c) (a3 m c) :=
    (W4_arr m ρ c 4).symm.trans (hA m ρ c)
  rw [e5, arr1_5, e4]

/-- The column sums of squares, block by block. -/
theorem hS2 (c : Dev nD) (j : Fin 32) : sqK m ρ c (ix2 (0 : Fin 1) j)
    = ∑ t : Fin 20, ∑ q : Fin 5000,
        val_main_v48 (F := Ideal) (a0 m c) (a1 m c) (a2 m c) (a3 m c) (ix2 (⟨5000 * t.val + q.val, by omega⟩ : Fin 100000) j)
          * val_main_v48 (F := Ideal) (a0 m c) (a1 m c) (a2 m c) (a3 m c) (ix2 (⟨5000 * t.val + q.val, by omega⟩ : Fin 100000) j) := by
  have e6 : sqK m ρ c = o1_6 (V3 m ρ) c := W4_arr m ρ c 6
  have e4 : o1_4 (V3 m ρ) c = val_main_v48 (F := Ideal) (a0 m c) (a1 m c) (a2 m c) (a3 m c) :=
    (W4_arr m ρ c 4).symm.trans (hA m ρ c)
  rw [e6, arr1_6, e4]

/-! ## The third region's result array -/

/-- The program's result array, at its literal type. -/
abbrev outK (c : Dev nD) : (⟨S100000x32, .f32⟩ : BufTy).Contents (Elt Ideal) := W6 m ρ c (Proc.devRef .tc main_v57)

theorem nRow_apply (i : S1x32.Idx) : nRow (F := Ideal) i = Ideal.ofBits .f32 0x47C35000#32 :=
  broadcastInDim_apply _ bcast_S_S1x32 _ i ix0 (fun a => a.elim0)
theorem epsRow_apply (i : S1x32.Idx) : epsRow (F := Ideal) i = Ideal.ofBits .f32 0x3727C5AC#32 :=
  broadcastInDim_apply _ bcast_S_S1x32 _ i ix0 (fun a => a.elim0)

/-- The column mean as the kernel program computes it. -/
def meanK (c : Dev nD) (j : Fin 32) : EReal := Ideal.div (sumK m ρ c (ix2 (0 : Fin 1) j)) (Ideal.ofBits .f32 0x47C35000#32)
/-- The inverse deviation as the kernel program computes it: from the mean of the squares less the squared mean. -/
def istdK (c : Dev nD) (j : Fin 32) : EReal :=
  Ideal.rsqrt ((Ideal.div (sqK m ρ c (ix2 (0 : Fin 1) j)) (Ideal.ofBits .f32 0x47C35000#32) - meanK m ρ c j * meanK m ρ c j)
    + Ideal.ofBits .f32 0x3727C5AC#32)

theorem mean_at (c : Dev nD) (j : Fin 32) : eMean (V5 m ρ) c (ix2 (0 : Fin 1) j) = meanK m ρ c j := by
  have e : eMean (V5 m ρ) c = Host.divf (sumK m ρ c) (nRow (F := Ideal)) := W5_v46 m ρ c
  rw [e]
  unfold meanK
  rw [← nRow_apply (ix2 (0 : Fin 1) j)]
  rfl

theorem istd_at (c : Dev nD) (j : Fin 32) : eIstd (V5 m ρ) c (ix2 (0 : Fin 1) j) = istdK m ρ c j := by
  have e : eIstd (V5 m ρ) c = Host.rsqrt (addf (subf (Host.divf (sqK m ρ c) (nRow (F := Ideal)))
      (mulf (Host.divf (sumK m ρ c) (nRow (F := Ideal))) (Host.divf (sumK m ρ c) (nRow (F := Ideal))))) (epsRow (F := Ideal))) :=
    W5_v53 m ρ c
  rw [e]
  unfold istdK meanK
  rw [← nRow_apply (ix2 (0 : Fin 1) j), ← epsRow_apply (ix2 (0 : Fin 1) j)]
  rfl

/-- The result array, entry by entry: the leaky threshold of the normalized, scaled and shifted combined entry. -/
theorem out_at (c : Dev nD) (r : Fin 100000) (j : Fin 32) : outK m ρ c (ix2 r j)
    = leaky (a6 m c (ix1 (0 : Fin 1)))
        (yy (val_main_v48 (F := Ideal) (a0 m c) (a1 m c) (a2 m c) (a3 m c) (ix2 r j)) (meanK m ρ c j) (istdK m ρ c j)
          (a4 m c (ix1 j)) (a5 m c (ix1 j))) := by
  have e : outK m ρ c = o2 (V5 m ρ) c := W6_arr m ρ c 6
  rw [e, arr2_6]
  have hP : eP (V5 m ρ) c = shapeCast S1x1 (a6 m c) shapeCasts_S1_S1x1 := W5_v56 m ρ c
  have hAA : eA (V5 m ρ) c = val_main_v48 (F := Ideal) (a0 m c) (a1 m c) (a2 m c) (a3 m c) := (W5_v44_0 m ρ c).trans (hA m ρ c)
  have hG : eG (V5 m ρ) c = shapeCast S1x32 (a4 m c) shapeCasts_S32_S1x32 := W5_v54 m ρ c
  have hBe : eBeta (V5 m ρ) c = shapeCast S1x32 (a5 m c) shapeCasts_S32_S1x32 := W5_v55 m ρ c
  rw [mean_at, istd_at, hP, hAA, hG, hBe, shapeCast_a_1a_apply, shapeCast_a_1a_apply, shapeCast_a_1a_apply]

end Cert.KernelIdeal.KV

end
-- ==== Proof.RefValue.lean ====
import proofs.«162978_j89163521065197_1_alg».proof.Proof.RefRead
import Idealize.ShloMosaic.Lib.Pipeline.Value
import Idealize.ShloMosaic.Lib.ValueIdx

set_option maxRecDepth 65536

noncomputable section

namespace Cert.ReferenceIdeal.RefValue

open Cert.ReferenceIdeal Cert.ReferenceIdeal.ReadP Idealize.ShloMosaic Idealize.ShloMosaic.ValueIdx

variable (x0 : S100000x3.Idx → EReal) (x1 : IVec S2x1600000 32) (x2 : S3x32.Idx → EReal) (x3 x4 x5 : S32.Idx → EReal)
  (x6 : S1.Idx → EReal)

/-! ## The broadcasts' composed index maps, at an entry `(r, j)` -/

theorem idx52_53 (r : Fin 100000) (j : Fin 32) : idx_main_v52 (idx_main_v53 (ix2 r j)) = ix1 j :=
  funext fun a => match a with | ⟨0, _⟩ => rfl
theorem idx59_60 (r : Fin 100000) (j : Fin 32) : idx_main_v59 (idx_main_v60 (ix2 r j)) = ix1 j :=
  funext fun a => match a with | ⟨0, _⟩ => rfl
theorem idx65_66 (r : Fin 100000) (j : Fin 32) : idx_main_v65 (idx_main_v66 (ix2 r j)) = ix1 j :=
  funext fun a => match a with | ⟨0, _⟩ => rfl
theorem idx68_69 (r : Fin 100000) (j : Fin 32) : idx_main_v68 (idx_main_v69 (ix2 r j)) = ix1 j :=
  funext fun a => match a with | ⟨0, _⟩ => rfl
theorem idx71_72 (r : Fin 100000) (j : Fin 32) : idx_main_v71 (idx_main_v72 (ix2 r j)) = ix1 j :=
  funext fun a => match a with | ⟨0, _⟩ => rfl
theorem idx49 (j : Fin 32) (k : Fin 100000) : idx_main_v49 (ix1 j) k = ix2 k j :=
  funext fun a => match a with | ⟨0, _⟩ => rfl | ⟨1, _⟩ => rfl
theorem idx56 (j : Fin 32) (k : Fin 100000) : idx_main_v56 (ix1 j) k = ix2 k j :=
  funext fun a => match a with | ⟨0, _⟩ => rfl | ⟨1, _⟩ => rfl

/-- The one-entry slope array read as a scalar. -/
theorem slope_apply (j : S_.Idx) : val_main_v76 (F := Ideal) x6 j = x6 (ix1 (0 : Fin 1)) := by
  unfold val_main_v76
  refine shapeCast_apply x6 _ j (ix1 (0 : Fin 1)) ?_
  have h2 : (S_.rowMajor j).val < 1 := (S_.rowMajor j).isLt
  rw [Shape.rowMajor_val_one]
  show 0 = _
  omega

/-- A column's mean: the sum of its hundred thousand entries (from zero) over the count. -/
theorem mean_apply (j : Fin 32) : val_main_v51 (F := Ideal) x0 x1 x2 x3 (ix1 j)
    = Ideal.div (Ideal.ofBits .f32 0x00000000#32 + ∑ k : Fin 100000, val_main_v48 (F := Ideal) x0 x1 x2 x3 (ix2 k j))
        (Ideal.ofBits .f32 0x47C35000#32) := by
  rw [val_main_v51_apply, val_main_v49_apply, val_main_v50_apply, val_main_cst_10_apply, val_main_cst_9_apply,
    Ideal.hostDivf_def, Ideal.ofBits_def, Ideal.ofBits_def]
  have e : (fun k : Fin 100000 => val_main_v48 (F := Ideal) x0 x1 x2 x3 (idx_main_v49 (ix1 j) k))
      = fun k : Fin 100000 => val_main_v48 (F := Ideal) x0 x1 x2 x3 (ix2 k j) := funext fun k => congrArg _ (idx49 j k)
  rw [e]

/-- A column's centred entry. -/
theorem centred_apply (k : Fin 100000) (j : Fin 32) : val_main_v54 (F := Ideal) x0 x1 x2 x3 (ix2 k j)
    = val_main_v48 (F := Ideal) x0 x1 x2 x3 (ix2 k j) - val_main_v51 (F := Ideal) x0 x1 x2 x3 (ix1 j) := by
  rw [val_main_v54_apply, val_main_v53_apply, val_main_v52_apply, idx52_53, Ideal.subf_def]

/-- A column's variance: the mean of the squared centred entries. -/
theorem var_apply (j : Fin 32) : val_main_v58 (F := Ideal) x0 x1 x2 x3 (ix1 j)
    = Ideal.div (Ideal.ofBits .f32 0x00000000#32 + ∑ k : Fin 100000,
          (val_main_v48 (F := Ideal) x0 x1 x2 x3 (ix2 k j) - val_main_v51 (F := Ideal) x0 x1 x2 x3 (ix1 j))
            * (val_main_v48 (F := Ideal) x0 x1 x2 x3 (ix2 k j) - val_main_v51 (F := Ideal) x0 x1 x2 x3 (ix1 j)))
        (Ideal.ofBits .f32 0x47C35000#32) := by
  rw [val_main_v58_apply, val_main_v56_apply, val_main_v57_apply, val_main_cst_12_apply, val_main_cst_11_apply,
    Ideal.hostDivf_def, Ideal.ofBits_def, Ideal.ofBits_def]
  have e : (fun k : Fin 100000 => val_main_v55 (F := Ideal) x0 x1 x2 x3 (idx_main_v56 (ix1 j) k))
      = fun k : Fin 100000 => (val_main_v48 (F := Ideal) x0 x1 x2 x3 (ix2 k j) - val_main_v51 (F := Ideal) x0 x1 x2 x3 (ix1 j))
            * (val_main_v48 (F := Ideal) x0 x1 x2 x3 (ix2 k j) - val_main_v51 (F := Ideal) x0 x1 x2 x3 (ix1 j)) :=
    funext fun k => by rw [idx56, val_main_v55_apply, Ideal.mulf_def, centred_apply]
  rw [e]

/-- The normalized, scaled and shifted entry. -/
theorem affine_apply (r : Fin 100000) (j : Fin 32) : val_main_v73 (F := Ideal) x0 x1 x2 x3 x4 x5 (ix2 r j)
    = ((val_main_v48 (F := Ideal) x0 x1 x2 x3 (ix2 r j) - val_main_v51 (F := Ideal) x0 x1 x2 x3 (ix1 j))
          * Ideal.rsqrt (val_main_v58 (F := Ideal) x0 x1 x2 x3 (ix1 j) + Ideal.ofBits .f32 0x3727C5AC#32))
        * x4 (ix1 j) + x5 (ix1 j) := by
  rw [val_main_v73_apply, val_main_v70_apply, val_main_v67_apply, val_main_v61_apply, val_main_v60_apply, val_main_v59_apply,
    idx59_60, val_main_v66_apply, val_main_v65_apply, idx65_66, val_main_v64_apply, val_main_v63_apply, val_main_v62_apply,
    val_main_cst_13_apply, val_main_v69_apply, val_main_v68_apply, idx68_69, val_main_v72_apply, val_main_v71_apply, idx71_72,
    Ideal.addf_def, Ideal.mulf_def, Ideal.mulf_def, Ideal.subf_def, Ideal.hostUnary_rsqrt_def, Ideal.addf_def, Ideal.ofBits_def]

/-- The result: the affine entry where it is at least zero, the slope times it elsewhere. -/
theorem out_apply (r : Fin 100000) (j : Fin 32) : val_main_v79 (F := Ideal) x0 x1 x2 x3 x4 x5 x6 (ix2 r j)
    = Scalar.select (FloatOps.cmpf (F := Ideal) (φ := .f32) .oge (val_main_v73 (F := Ideal) x0 x1 x2 x3 x4 x5 (ix2 r j))
          (FloatOps.ofBits (F := Ideal) .f32 0x00000000#32))
        (val_main_v73 (F := Ideal) x0 x1 x2 x3 x4 x5 (ix2 r j))
        (x6 (ix1 (0 : Fin 1)) * val_main_v73 (F := Ideal) x0 x1 x2 x3 x4 x5 (ix2 r j)) := by
  rw [val_main_v79_apply, val_main_v75_apply, val_main_v78_apply, val_main_v77_apply, val_main_v74_apply, val_main_cst_14_apply,
    slope_apply, Ideal.mulf_def]

end Cert.ReferenceIdeal.RefValue

end
-- ==== Proof.LibERealSums.lean ====
/-
  Finite sums, products and running maxima of extended reals all of whose terms are real numbers.

  On the extended reals multiplication does not distribute over addition at the infinities, and a sum
  cannot be regrouped against a factor there. Every law below is therefore proved by naming the real
  numbers behind the terms, moving the coercion ℝ → EReal outside the sum or product, and doing the
  algebra in ℝ.
-/
import Mathlib.Data.EReal.Operations
import Mathlib.Algebra.BigOperators.Group.Finset.Basic
import Mathlib.Algebra.BigOperators.Ring.Finset
import Mathlib.Data.Finset.Fold
import Mathlib.Tactic.Ring

namespace Cert.ERealSums

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real extended reals is real. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A difference of two real extended reals is real. -/
theorem exists_real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- A finite sum of real extended reals is real. -/
theorem exists_real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl (fun i _ => hg i)⟩

/-- A finite sum of products of real extended reals (an inner product of two real vectors) is real. -/
theorem exists_real_sum_mul {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) :=
  exists_real_sum s _ (fun i => exists_real_mul (hf i) (hg i))

/-- The maximum of two real extended reals is real. -/
theorem exists_real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- The running maximum, started from ⊥, of real values over a NONEMPTY finite set is real (over the empty
    set it is ⊥). -/
theorem exists_real_fold_max {ι : Type*} (s : Finset ι) (hs : s.Nonempty) (f : ι → EReal)
    (hf : ∀ i, ∃ r : ℝ, f i = (r : EReal)) : ∃ r : ℝ, s.fold max ⊥ f = (r : EReal) := by
  induction hs using Finset.Nonempty.cons_induction with
  | singleton a => rw [Finset.fold_singleton, max_bot_right]; exact hf a
  | cons a s ha hs ih => rw [Finset.fold_cons]; exact exists_real_max (hf a) ih

/-- A real factor moves out of a finite sum of products of reals: ∑ x·(w·c) = (∑ x·w)·c. (False on the
    extended reals in general: the sum on the right can be ⊤ + ⊥.) -/
theorem sum_mul_mul_eq_sum_mul_mul {ι : Type*} (s : Finset ι) (x w : ι → EReal) (c : EReal)
    (hx : ∀ i, ∃ r : ℝ, x i = (r : EReal)) (hw : ∀ i, ∃ r : ℝ, w i = (r : EReal)) (hc : ∃ r : ℝ, c = (r : EReal)) :
    ∑ i ∈ s, x i * (w i * c) = (∑ i ∈ s, x i * w i) * c := by
  choose a ha using hx
  choose b hb using hw
  obtain ⟨t, rfl⟩ := hc
  have h1 : ∀ i, x i * (w i * (t : EReal)) = ((a i * (b i * t) : ℝ) : EReal) := fun i => by
    rw [ha i, hb i, EReal.coe_mul, EReal.coe_mul]
  have h2 : ∀ i, x i * w i = ((a i * b i : ℝ) : EReal) := fun i => by rw [ha i, hb i, EReal.coe_mul]
  rw [Finset.sum_congr rfl (fun i _ => h1 i), Finset.sum_congr rfl (fun i _ => h2 i), ← coe_finset_sum,
    ← coe_finset_sum, ← EReal.coe_mul, Finset.sum_mul]
  exact congrArg _ (Finset.sum_congr rfl (fun i _ => by ring))

end Cert.ERealSums
-- ==== Proof.LibStats.lean ====
import Mathlib.Data.EReal.Operations
import Mathlib.Algebra.BigOperators.Group.Finset.Basic
import Mathlib.Algebra.BigOperators.Ring.Finset
import Mathlib.Algebra.BigOperators.Fin
import Mathlib.Logic.Equiv.Fin.Basic
import Mathlib.Tactic.Ring
import Mathlib.Tactic.FieldSimp
import Idealize.ShloMosaic.PureOps.Ideal
import proofs.«162978_j89163521065197_1_alg».proof.Proof.LibERealSums

noncomputable section

namespace Cert.Stats

open Idealize.ShloMosaic

/-- A sum over 100000 rows is the sum over 20 consecutive blocks of 5000 rows each. -/
theorem sum_rows_blocks {M : Type*} [AddCommMonoid M] (f : Fin 100000 → M) :
    ∑ t : Fin 20, ∑ q : Fin 5000, f ⟨5000 * t.val + q.val, by omega⟩ = ∑ k : Fin 100000, f k := by
  rw [← Fintype.sum_prod_type']
  refine Fintype.sum_equiv (finProdFinEquiv (m := 20) (n := 5000)) _ _ (fun x => ?_)
  congr 1
  apply Fin.ext
  simp only [finProdFinEquiv_apply_val]
  omega

/-- Over the reals: the mean of the squared deviations from the mean is the mean of the squares less the square of
    the mean. -/
theorem var_eq_real (n : ℕ) (hn : 0 < n) (b : Fin n → ℝ) :
    (∑ k, (b k - (∑ k, b k) * (1 / (n : ℝ))) * (b k - (∑ k, b k) * (1 / (n : ℝ)))) * (1 / (n : ℝ))
      = (∑ k, b k * b k) * (1 / (n : ℝ)) - ((∑ k, b k) * (1 / (n : ℝ))) * ((∑ k, b k) * (1 / (n : ℝ))) := by
  have hn' : (n : ℝ) ≠ 0 := by exact_mod_cast hn.ne'
  generalize hS : ∑ k, b k = S
  have hk : ∀ k, (b k - S * (1 / (n : ℝ))) * (b k - S * (1 / (n : ℝ)))
      = b k * b k - (2 * (S * (1 / (n : ℝ)))) * b k + (S * (1 / (n : ℝ))) * (S * (1 / (n : ℝ))) := fun k => by ring
  rw [Finset.sum_congr rfl (fun k _ => hk k), Finset.sum_add_distrib, Finset.sum_sub_distrib, ← Finset.mul_sum, hS,
    Finset.sum_const, Finset.card_univ, Fintype.card_fin, nsmul_eq_mul]
  field_simp
  ring

/-- The biased variance of real numbers two ways: the mean of the squared deviations from the mean is the mean of the
    squares less the square of the mean. (Over the extended reals it needs every entry real.) -/
theorem var_eq (n : ℕ) (hn : 0 < n) (a : Fin n → EReal) (ha : ∀ k, ∃ r : ℝ, a k = (r : EReal)) :
    (∑ k, (a k - (∑ k, a k) * ((1 / (n : ℝ) : ℝ) : EReal)) * (a k - (∑ k, a k) * ((1 / (n : ℝ) : ℝ) : EReal))) * ((1 / (n : ℝ) : ℝ) : EReal)
      = (∑ k, a k * a k) * ((1 / (n : ℝ) : ℝ) : EReal)
        - ((∑ k, a k) * ((1 / (n : ℝ) : ℝ) : EReal)) * ((∑ k, a k) * ((1 / (n : ℝ) : ℝ) : EReal)) := by
  choose b hb using ha
  have hS : ∑ k, a k = ((∑ k, b k : ℝ) : EReal) := by
    rw [Cert.ERealSums.coe_finset_sum]
    exact Finset.sum_congr rfl (fun k _ => hb k)
  rw [hS]
  have h1 : ∀ k, (a k - ((∑ k, b k : ℝ) : EReal) * ((1 / (n : ℝ) : ℝ) : EReal))
        * (a k - ((∑ k, b k : ℝ) : EReal) * ((1 / (n : ℝ) : ℝ) : EReal))
      = (((b k - (∑ k, b k) * (1 / (n : ℝ))) * (b k - (∑ k, b k) * (1 / (n : ℝ))) : ℝ) : EReal) := fun k => by
    rw [hb k, ← EReal.coe_mul, ← EReal.coe_sub, ← EReal.coe_mul]
  have h2 : ∀ k, a k * a k = ((b k * b k : ℝ) : EReal) := fun k => by rw [hb k, EReal.coe_mul]
  rw [Finset.sum_congr rfl (fun k _ => h1 k), Finset.sum_congr rfl (fun k _ => h2 k),
    ← Cert.ERealSums.coe_finset_sum, ← Cert.ERealSums.coe_finset_sum, ← EReal.coe_mul, ← EReal.coe_mul,
    ← EReal.coe_mul, ← EReal.coe_mul, ← EReal.coe_sub]
  exact congrArg _ (var_eq_real n hn b)

/-- A real extended real plus a finite sum of real extended reals is real. -/
theorem exists_real_add_sum {ι : Type*} (s : Finset ι) (x : EReal) (f : ι → EReal) (hx : ∃ r : ℝ, x = (r : EReal))
    (hf : ∀ i, ∃ r : ℝ, f i = (r : EReal)) : ∃ r : ℝ, x + ∑ i ∈ s, f i = (r : EReal) := by
  obtain ⟨r, rfl⟩ := hx
  obtain ⟨t, ht⟩ := Cert.ERealSums.exists_real_sum s f hf
  exact ⟨r + t, by rw [ht, EReal.coe_add]⟩

/-- The accumulating scatter of real updates into a real array is real, entry by entry. -/
theorem real_hostScatterAdd {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) := by
  unfold Ideal.hostScatterAdd
  exact exists_real_add_sum _ _ _ (hx i) hu

/-- Zero plus a finite sum of ones is the number of terms. -/
theorem zero_add_sum_one {ι : Type*} (s : Finset ι) :
    (0 : EReal) + ∑ _j ∈ s, (1 : EReal) = ((s.card : ℝ) : EReal) := by
  rw [zero_add, Finset.sum_const, EReal.nsmul_eq_mul, mul_one]
  rfl

/-- Scattering ones into zeros counts: each entry is a natural number (as a real). -/
theorem count_hostScatterAdd {s si su : Shape} (d : ScatterDims s si su) {w : Nat} (idx : IVec si w) (i : s.Idx) :
    ∃ n : ℕ, Ideal.hostScatterAdd d (fun _ => (0 : EReal)) idx (fun _ => (1 : EReal)) i = ((n : ℝ) : EReal) := by
  unfold Ideal.hostScatterAdd
  exact ⟨_, zero_add_sum_one _⟩

/-- The reciprocal square root of a positive real is a positive real. -/
theorem real_rsqrt_of_pos {r : ℝ} (hr : 0 < r) : ∃ s : ℝ, 0 < s ∧ Ideal.rsqrt (r : EReal) = (s : EReal) := by
  refine ⟨(Real.sqrt r)⁻¹, inv_pos.mpr (Real.sqrt_pos.mpr hr), ?_⟩
  rw [Ideal.rsqrt_coe, if_neg (not_lt.mpr hr.le), if_neg hr.ne']

/-- A real divided by a nonzero real is real. -/
theorem real_div {x y : ℝ} (hy : y ≠ 0) : Ideal.div (x : EReal) (y : EReal) = ((x / y : ℝ) : EReal) := by
  rw [Ideal.div_coe hy, ← EReal.coe_mul, mul_one_div]

/-- The single-precision patterns this kernel spells, as the reals they denote. -/
theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_1e5 : Ideal.ofBits .f32 0x47C35000#32 = ((100000 : ℝ) : EReal) := by
  simp [Ideal.ofBits, Ideal.ieee, -EReal.coe_mul]; norm_num

end Cert.Stats

end
-- ==== Proof.Finite.lean ====
import proofs.«162978_j89163521065197_1_alg».proof.Proof.RefRead
import proofs.«162978_j89163521065197_1_alg».proof.Proof.LibStats
import proofs.«162978_j89163521065197_1_alg».proof.Proof.LibERealSums

noncomputable section

namespace Cert.ReferenceIdeal.Reals

open Cert.ReferenceIdeal Cert.ReferenceIdeal.ReadP Idealize.ShloMosaic Idealize.ShloMosaic.ValueIdx

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := Cert.ERealSums.exists_real_mul hx hy
theorem IsReal.sub {x y : EReal} (hx : IsReal x) (hy : IsReal y) : IsReal (x - y) := Cert.ERealSums.exists_real_sub hx hy
theorem IsReal.sum {ι : Type*} (s : Finset ι) (f : ι → EReal) (hf : ∀ i, IsReal (f i)) : IsReal (∑ i ∈ s, f i) :=
  Cert.ERealSums.exists_real_sum s f hf
theorem isReal_zero : IsReal 0 := ⟨0, rfl⟩

variable (x0 : S100000x3.Idx → EReal) (x1 : IVec S2x1600000 32) (x2 : S3x32.Idx → EReal) (x3 : S32.Idx → EReal)

/-- The zero row the degree count starts from. -/
theorem v5_eq : val_main_v5 (F := Ideal) = fun _ => (0 : EReal) := by
  funext i
  rw [val_main_v5_apply, val_main_cst_0_apply, Ideal.ofBits_def, Cert.Stats.ofBits_zero]

/-- Every edge contributes one to its target's count. -/
theorem v4_eq : val_main_v4 (F := Ideal) = fun _ => (1 : EReal) := by
  funext i
  rw [val_main_v4_apply, val_main_cst_apply, Ideal.ofBits_def, Cert.Stats.ofBits_one]; rfl

/-- A node's degree (one for itself plus the count of edges into it) is a real number at least one. -/
theorem deg_real (i : S100000.Idx) : ∃ n : ℕ, val_main_v9 (F := Ideal) x1 i = ((1 + n : ℝ) : EReal) := by
  have e7 : val_main_v7 (F := Ideal) x1 = Ideal.hostScatterAdd scatter_S100000_S1600000x1_S1600000_n_0_0_1
      (val_main_v5 (F := Ideal)) (val_main_v6 (F := Ideal) x1) (val_main_v4 (F := Ideal)) := rfl
  rw [val_main_v9_apply, val_main_v8_apply, val_main_cst_1_apply, Ideal.addf_def, Ideal.ofBits_def, Cert.Stats.ofBits_one, e7,
    v5_eq, v4_eq]
  obtain ⟨n, hn⟩ := Cert.Stats.count_hostScatterAdd scatter_S100000_S1600000x1_S1600000_n_0_0_1 (val_main_v6 (F := Ideal) x1) i
  exact ⟨n, by rw [hn, ← EReal.coe_add]⟩

/-- The inverse square root of a degree is a real number. -/
theorem dinv_real (i : S100000.Idx) : IsReal (val_main_v10 (F := Ideal) x1 i) := by
  obtain ⟨n, hn⟩ := deg_real x1 i
  rw [val_main_v10_apply, hn, Ideal.hostUnary_rsqrt_def]
  obtain ⟨s, -, hs⟩ := Cert.Stats.real_rsqrt_of_pos (r := 1 + n) (by positivity)
  exact ⟨s, hs⟩

/-- The reciprocal of a degree is a real number. -/
theorem invdeg_real (i : S100000.Idx) : IsReal (val_main_v41 (F := Ideal) x1 i) := by
  obtain ⟨n, hn⟩ := deg_real x1 i
  rw [val_main_v41_apply, hn, val_main_v40_apply, val_main_cst_8_apply, Ideal.hostDivf_def, Ideal.ofBits_def, Cert.Stats.ofBits_one,
    Cert.Stats.real_div (x := 1) (y := 1 + n) (by positivity)]
  exact ⟨_, rfl⟩

variable (h0 : ∀ i, IsReal (x0 i)) (h2 : ∀ i, IsReal (x2 i)) (h3 : ∀ i, IsReal (x3 i))
include h0 h2

/-- The linear map of real features by real weights is real. -/
theorem h_real (i : S100000x32.Idx) : IsReal (val_main_v11 (F := Ideal) x0 x2 i) := by
  rw [val_main_v11_apply]
  exact IsReal.sum _ _ fun k => (h0 _).mul (h2 _)

/-- Each edge's message (the source's row scaled by the two inverse square-root degrees) is real. -/
theorem msg_real (i : S1600000x32.Idx) : IsReal (val_main_v36 (F := Ideal) x0 x1 x2 i) := by
  rw [val_main_v36_apply, Ideal.mulf_def]
  refine IsReal.mul ?_ ?_
  · have e : val_main_v33 (F := Ideal) x0 x1 x2 i = val_main_v11 (F := Ideal) x0 x2
        (gather_S100000x32_S1600000x1_S1600000x32_1_0_n_n_0_1_132.operandIdx i (val_main_v32 (F := Ideal) x1)) := rfl
    rw [e]
    exact h_real x0 x2 h0 h2 _
  · rw [val_main_v35_apply, val_main_v34_apply, val_main_v26_apply, Ideal.mulf_def]
    refine IsReal.mul ?_ ?_
    · have e : val_main_v18 (F := Ideal) x1 (idx_main_v34 (idx_main_v35 i)) = val_main_v10 (F := Ideal) x1
          (gather_S100000_S1600000x1_S1600000_n_0_n_n_0_1_1.operandIdx (idx_main_v34 (idx_main_v35 i)) (val_main_v17 (F := Ideal) x1)) := rfl
      rw [e]
      exact dinv_real x1 _
    · have e : val_main_v25 (F := Ideal) x1 (idx_main_v34 (idx_main_v35 i)) = val_main_v10 (F := Ideal) x1
          (gather_S100000_S1600000x1_S1600000_n_0_n_n_0_1_1.operandIdx (idx_main_v34 (idx_main_v35 i)) (val_main_v24 (F := Ideal) x1)) := rfl
      rw [e]
      exact dinv_real x1 _

/-- The messages summed into their targets are real. -/
theorem aggm_real (i : S100000x32.Idx) : IsReal (val_main_v39 (F := Ideal) x0 x1 x2 i) := by
  have e : val_main_v39 (F := Ideal) x0 x1 x2 = Ideal.hostScatterAdd scatter_S100000x32_S1600000x1_S1600000x32_1_0_0_1
      (val_main_v37 (F := Ideal)) (val_main_v38 (F := Ideal) x1) (val_main_v36 (F := Ideal) x0 x1 x2) := rfl
  rw [e]
  refine Cert.Stats.real_hostScatterAdd _ _ _ _ (fun i => ?_) (fun j => msg_real x0 x1 x2 h0 h2 j) i
  rw [val_main_v37_apply, val_main_cst_7_apply, Ideal.ofBits_def, Cert.Stats.ofBits_zero]
  exact isReal_zero

include h3

/-- The combined array (messages, the node's own scaled row, the bias) is real, entry by entry. -/
theorem agg_real (i : S100000x32.Idx) : IsReal (val_main_v48 (F := Ideal) x0 x1 x2 x3 i) := by
  rw [val_main_v48_apply, val_main_v45_apply, val_main_v44_apply, Ideal.addf_def, Ideal.addf_def, Ideal.mulf_def]
  refine IsReal.add (IsReal.add (aggm_real x0 x1 x2 h0 h2 i) (IsReal.mul (h_real x0 x2 h0 h2 i) ?_)) ?_
  · rw [val_main_v43_apply, val_main_v42_apply]
    exact invdeg_real x1 _
  · rw [val_main_v47_apply, val_main_v46_apply]
    exact h3 _

end Cert.ReferenceIdeal.Reals

end
-- ==== Proof.ColStats.lean ====
import proofs.«162978_j89163521065197_1_alg».proof.Proof.LibStats

noncomputable section

namespace Cert.Stats

open Idealize.ShloMosaic

/-- The mean of a column summed block by block is its mean summed at once (the host's sum starts from zero). -/
theorem mean_blocks (a : Fin 100000 → EReal) (N : EReal) :
    Ideal.div (∑ t : Fin 20, ∑ q : Fin 5000, a ⟨5000 * t.val + q.val, by omega⟩) N
      = Ideal.div (0 + ∑ k : Fin 100000, a k) N := by
  rw [sum_rows_blocks (fun k => a k), zero_add]

/-- For a real column of 100000 entries: the mean of the squares (summed block by block) less the square of the mean is the
    mean of the squared deviations from the mean. -/
theorem var_blocks (a : Fin 100000 → EReal) (ha : ∀ k, ∃ r : ℝ, a k = (r : EReal)) :
    Ideal.div (∑ t : Fin 20, ∑ q : Fin 5000, a ⟨5000 * t.val + q.val, by omega⟩ * a ⟨5000 * t.val + q.val, by omega⟩) ((100000 : ℝ) : EReal)
        - Ideal.div (0 + ∑ k : Fin 100000, a k) ((100000 : ℝ) : EReal) * Ideal.div (0 + ∑ k : Fin 100000, a k) ((100000 : ℝ) : EReal)
      = Ideal.div (0 + ∑ k : Fin 100000, (a k - Ideal.div (0 + ∑ k : Fin 100000, a k) ((100000 : ℝ) : EReal))
            * (a k - Ideal.div (0 + ∑ k : Fin 100000, a k) ((100000 : ℝ) : EReal))) ((100000 : ℝ) : EReal) := by
  have h5 : (100000 : ℝ) ≠ 0 := by norm_num
  -- the variance identity at n = 100000, its divisor written as the real literal
  have h := var_eq 100000 (by norm_num) a ha
  simp only [Nat.cast_ofNat] at h
  -- division by 100000 is the product with its reciprocal; the blockwise sum of squares is the whole sum
  simp only [Ideal.div_coe h5, zero_add]
  rw [sum_rows_blocks (fun k => a k * a k)]
  exact h.symm

end Cert.Stats

end
-- ==== Proof.Bridge.lean ====
import proofs.«162978_j89163521065197_1_alg».proof.Proof.KernelValue
import proofs.«162978_j89163521065197_1_alg».proof.Proof.RefValue
import proofs.«162978_j89163521065197_1_alg».proof.Proof.Finite
import proofs.«162978_j89163521065197_1_alg».proof.Proof.ColStats

set_option maxRecDepth 65536

noncomputable section

namespace Cert.Proof.Bridge

open Cert.KernelIdeal Cert.KernelIdeal.Gen Cert.KernelIdeal.HostV Cert.KernelIdeal.KV Cert.KernelIdeal.Val
open Cert.ReferenceIdeal.ReadP Cert.ReferenceIdeal.RefValue Cert.ReferenceIdeal.Reals
open Idealize.ShloMosaic Idealize.ShloMosaic.TcCoe Idealize.SL.Sem Idealize.ShloMosaic.ValueIdx

variable (m : (ℓ : Loc nD τ sig) → Buf (Elt Ideal) ℓ) (ρ : Dev nD → PrngReg)

/-- The two programs' column statistics agree on a real column: the kernel's mean (summed block by block) is the
    reference's, and the kernel's variance, the mean of the squares less the squared mean, is the reference's mean of the
    squared deviations; so the inverse deviations agree. -/
theorem stats_eq (c : Dev nD) (j : Fin 32)
    (hreal : ∀ k : Fin 100000, ∃ r : ℝ, val_main_v48 (F := Ideal) (a0 m c) (a1 m c) (a2 m c) (a3 m c) (ix2 k j) = (r : EReal)) :
    meanK m ρ c j = val_main_v51 (F := Ideal) (a0 m c) (a1 m c) (a2 m c) (a3 m c) (ix1 j)
      ∧ istdK m ρ c j = Ideal.rsqrt (val_main_v58 (F := Ideal) (a0 m c) (a1 m c) (a2 m c) (a3 m c) (ix1 j)
          + Ideal.ofBits .f32 0x3727C5AC#32) := by
  have hm : meanK m ρ c j = val_main_v51 (F := Ideal) (a0 m c) (a1 m c) (a2 m c) (a3 m c) (ix1 j) := by
    unfold meanK
    rw [hS1, mean_apply, Cert.Stats.ofBits_zero]
    exact Cert.Stats.mean_blocks (fun k => val_main_v48 (F := Ideal) (a0 m c) (a1 m c) (a2 m c) (a3 m c) (ix2 k j)) _
  refine ⟨hm, ?_⟩
  unfold istdK
  rw [hm, hS2, var_apply, mean_apply, Cert.Stats.ofBits_zero, Cert.Stats.ofBits_1e5]
  exact congrArg (fun v => Ideal.rsqrt (v + Ideal.ofBits .f32 0x3727C5AC#32))
    (Cert.Stats.var_blocks (fun k => val_main_v48 (F := Ideal) (a0 m c) (a1 m c) (a2 m c) (a3 m c) (ix2 k j)) hreal)

/-- On real features, weights and bias the kernel program's result array is the reference's result, entry by entry. -/
theorem result_eq (c : Dev nD) (h0 : ∀ i, IsReal (a0 m c i)) (h2 : ∀ i, IsReal (a2 m c i)) (h3 : ∀ i, IsReal (a3 m c i)) :
    outK m ρ c = val_main_v79 (F := Ideal) (a0 m c) (a1 m c) (a2 m c) (a3 m c) (a4 m c) (a5 m c) (a6 m c) := by
  funext i
  obtain ⟨r, j, rfl⟩ : ∃ (r : Fin 100000) (j : Fin 32), i = ix2 r j := ⟨i 0, i 1, eq_ix2 i⟩
  obtain ⟨hm, hs⟩ := stats_eq m ρ c j (fun k => agg_real (a0 m c) (a1 m c) (a2 m c) (a3 m c) h0 h2 h3 (ix2 k j))
  rw [out_at, out_apply, affine_apply, hm, hs]
  rfl

end Cert.Proof.Bridge

end
-- ==== Proof.PreFinite.lean ====
import proofs.«162978_j89163521065197_1_alg».proof.Pre_finite_inputs
import Idealize.ShloMosaic.PureOps.Ideal
import Idealize.ShloMosaic.Lib.ReduceAll
import Idealize.ShloMosaic.Lib.ValueIdx

noncomputable section

namespace Cert.Proof.PreFinite

open Idealize.ShloMosaic Idealize.ShloMosaic.ValueIdx Cert.Pre_finite_inputs

/-- A one-bit word made from a truth value is 1 exactly when the truth value is true. -/
theorem ofBool_eq_one_iff {b : Bool} : BitVec.ofBool b = 1#1 ↔ b = true := by cases b <;> decide

/-- An extended real whose absolute value is below plus infinity is a real number. -/
theorem real_of_abs_lt_inf (x : EReal)
    (h : Ideal.cmp .olt (max x (-x)) (Ideal.ofBits .f32 0x7F800000#32) = 1#1) : ∃ r : ℝ, x = (r : EReal) := by
  -- the pattern with all exponent bits set and no fraction bit denotes plus infinity
  have htop : Ideal.ofBits .f32 0x7F800000#32 = ⊤ := by simp [Ideal.ofBits, Ideal.ieee]
  rw [htop] at h
  have hlt : max x (-x) < ⊤ := by
    have hb : BitVec.ofBool (decide (max x (-x) < ⊤)) = 1#1 := h
    exact of_decide_eq_true (ofBool_eq_one_iff.1 hb)
  -- at either infinity the larger of x and -x is plus infinity, which is not below itself
  induction x using EReal.rec with
  | bot => simp at hlt
  | coe r => exact ⟨r, rfl⟩
  | top => simp at hlt

/-- The scalar shape has exactly one index. -/
local instance : Subsingleton S_.Idx := ⟨fun a b => funext fun d => d.elim0⟩

/-- A conjunction of two arrays of truth values that is true at an index has both true there. -/
theorem andi_apply_eq_one {s : Shape} (a b : IVec s 1) (i : s.Idx) (h : andi a b i = 1#1) : a i = 1#1 ∧ b i = 1#1 :=
  IntOp.andi_eq_one.1 h

/-- If the test "every entry of |x| is below plus infinity" came out true, every entry of x is real. -/
theorem real_of_all_abs_lt_inf {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ix0 = 1#1) (i : s.Idx) : ∃ r : ℝ, x i = (r : EReal) :=
  real_of_abs_lt_inf (x i) (Host.reduce_andi_all _ _ hr hu ix0 h i)

/-- Under the precondition "every float input is finite" the features, the weights and the bias are real, entry by entry. -/
theorem real_inputs [Cert.Pre_finite_inputs.Facts] (x0 : FVec Ideal S100000x3 .f32) (x1 : IVec S2x1600000 32)
    (x2 : FVec Ideal S3x32 .f32) (x3 x4 x5 : FVec Ideal S32 .f32) (x6 : FVec Ideal S1 .f32)
    (h : Cert.Pre_finite_inputs.fn (F := Ideal) x0 x1 x2 x3 x4 x5 x6 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ix0
  dsimp only [fn, fn_part1] at h0
  -- the result is the conjunction of six tests, nested to the left; the first three are the ones wanted
  obtain ⟨h23, -⟩ := andi_apply_eq_one _ _ _ h0
  obtain ⟨h18, -⟩ := andi_apply_eq_one _ _ _ h23
  obtain ⟨h13, -⟩ := andi_apply_eq_one _ _ _ h18
  obtain ⟨h8, h12⟩ := andi_apply_eq_one _ _ _ h13
  obtain ⟨h3, h7⟩ := andi_apply_eq_one _ _ _ h8
  exact ⟨real_of_all_abs_lt_inf x0 _ _ _ h3, real_of_all_abs_lt_inf x2 _ _ _ h7, real_of_all_abs_lt_inf x3 _ _ _ h12⟩

end Cert.Proof.PreFinite

end
-- ==== Proof.lean ====
/-
  A graph-convolution layer with batch normalisation and a leaky threshold, as three kernel regions among host
  operations, against its plain reference, over the extended reals.

  Both programs count each node's degree, take its inverse square root and its reciprocal, gather the neighbours'
  rows, scale them and sum them into their targets with the SAME host operations. They differ in three places.
  The linear map x·W is a blocked matrix product in the kernel (its reduced-precision casts are the identity here)
  and one product in the reference: the same three-term sums. The column sums the normalisation needs are
  accumulated over twenty row blocks in the kernel and taken at once in the reference: the same sums, regrouped.
  And the variance is the mean of the squares less the squared mean in the kernel, the mean of the squared
  deviations in the reference: equal for real columns, which is where the precondition (every float input
  finite) is used — the degrees are at least one, so every entry of the combined array is a real number.
  The rest (centre, scale by the inverse deviation, by gamma, shift by beta, threshold with the slope) is the same
  arithmetic in the same order on both sides.
-/
import proofs.«162978_j89163521065197_1_alg».proof.Defs
import proofs.«162978_j89163521065197_1_alg».proof.Proof.Gen.Kernel
import proofs.«162978_j89163521065197_1_alg».proof.Proof.Gen.Kernel.Frame
import proofs.«162978_j89163521065197_1_alg».proof.Proof.Gen.KernelIdeal
import proofs.«162978_j89163521065197_1_alg».proof.Proof.Gen.KernelIdeal.Frame
import proofs.«162978_j89163521065197_1_alg».proof.Proof.Gen.ReferenceIdeal
import proofs.«162978_j89163521065197_1_alg».proof.Proof.Gen.Pre_finite_inputs
import proofs.«162978_j89163521065197_1_alg».proof.Proof.KernelRun
import proofs.«162978_j89163521065197_1_alg».proof.Proof.RefRun
import proofs.«162978_j89163521065197_1_alg».proof.Proof.RefRead
import proofs.«162978_j89163521065197_1_alg».proof.Proof.Bridge
import proofs.«162978_j89163521065197_1_alg».proof.Proof.PreFinite
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on finite arguments the two programs end with the same result array. -/
theorem algebraic : Cert.algebraic_KernelIdeal_ReferenceIdeal := by
  intro m ρ m' ρ' hpre hagree
  refine ⟨fun c => Cert.KernelIdeal.Gen.W6 m ρ c (Proc.devRef .tc Cert.KernelIdeal.main_v57), Cert.KernelIdeal.Run.run_main m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h2, h3⟩ := Cert.Proof.PreFinite.real_inputs _ _ _ _ _ _ _ (hpre c)
  rw [Cert.ReferenceIdeal.ReadP.val_main_v79_eq, (hagree c).1, (hagree c).2.1, (hagree c).2.2.1, (hagree c).2.2.2.1,
    (hagree c).2.2.2.2.1, (hagree c).2.2.2.2.2.1, (hagree c).2.2.2.2.2.2]
  exact (Cert.Proof.Bridge.result_eq m ρ c h0 h2 h3).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
